-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x512 : Shape := ⟨3, ![64, 128, 512]⟩
abbrev S64x512x1024 : Shape := ⟨3, ![64, 512, 1024]⟩
abbrev S64x512 : Shape := ⟨2, ![64, 512]⟩
abbrev S1024x512 : Shape := ⟨2, ![1024, 512]⟩
abbrev S512 : Shape := ⟨1, ![512]⟩
abbrev S1536x512 : Shape := ⟨2, ![1536, 512]⟩
abbrev S_ : Shape := ⟨0, ![]⟩

class Facts : Prop where
  bcast_S_S64x128x512 : S_.BroadcastsInDim S64x128x512 (![] : Fin 0 → Fin S64x128x512.rank)
  reducesTo_S64x128x512_S_d0_1_2 : S64x128x512.ReducesTo [0, 1, 2] S_
  h_S_ : 0 < S_.numel
  bcast_S_S64x512x1024 : S_.BroadcastsInDim S64x512x1024 (![] : Fin 0 → Fin S64x512x1024.rank)
  reducesTo_S64x512x1024_S_d0_1_2 : S64x512x1024.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S1536x512 : S_.BroadcastsInDim S1536x512 (![] : Fin 0 → Fin S1536x512.rank)
  reducesTo_S1536x512_S_d0_1 : S1536x512.ReducesTo [0, 1] S_

variable [Facts]

def fn_part1 {F : FTy → Type} [FloatOps F] (main_arg5 : FVec F S1536x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1536x512 .f32 := Host.absf main_arg5
  let main_cst_6 : FVec F S_ .f32 := constant S_ .f32 0x7F800000#32
  let main_v20 : FVec F S1536x512 .f32 := broadcastInDim S1536x512 ![] bcast_S_S1536x512 main_cst_6
  let main_v21 : IVec S1536x512 1 := cmpf .olt main_v19 main_v20
  let main_c_7 : IVec S_ 1 := constantI S_ 1 1#1
  let main_v22 : IVec S_ 1 := (fun x v => Host.reduce IntOp.andi x v reducesTo_S1536x512_S_d0_1 h_S_) main_v21 main_c_7
  let main_v23 : IVec S_ 1 := andi main_v18 main_v22
  main_v23

def fn {F : FTy → Type} [FloatOps F] (main_arg0 : FVec F S64x128x512 .f32) (main_arg1 : FVec F S64x512x1024 .f32) (main_arg2 : IVec S64x512 32) (main_arg3 : FVec F S1024x512 .f32) (main_arg4 : FVec F S512 .f32) (main_arg5 : FVec F S1536x512 .f32) : IVec S_ 1 :=
  let main_v0 : FVec F S64x128x512 .f32 := Host.absf main_arg0
  let main_cst : FVec F S_ .f32 := constant S_ .f32 0x7F800000#32
  let main_v1 : FVec F S64x128x512 .f32 := broadcastInDim S64x128x512 ![] bcast_S_S64x128x512 main_cst
  let main_v2 : IVec S64x128x512 1 := cmpf .olt main_v0 main_v1
  let main_c : IVec S_ 1 := constantI S_ 1 1#1
  let main_v3 : IVec S_ 1 := (fun x v => Host.reduce IntOp.andi x v reducesTo_S64x128x512_S_d0_1_2 h_S_) main_v2 main_c
  let main_v4 : FVec F S64x512x1024 .f32 := Host.absf main_arg1
  let main_cst_0 : FVec F S_ .f32 := constant S_ .f32 0x7F800000#32
  let main_v5 : FVec F S64x512x1024 .f32 := broadcastInDim S64x512x1024 ![] bcast_S_S64x512x1024 main_cst_0
  let main_v6 : IVec S64x512x1024 1 := cmpf .olt main_v4 main_v5
  let main_c_1 : IVec S_ 1 := constantI S_ 1 1#1
  let main_v7 : IVec S_ 1 := (fun x v => Host.reduce IntOp.andi x v reducesTo_S64x512x1024_S_d0_1_2 h_S_) main_v6 main_c_1
  let main_v8 : IVec S_ 1 := andi main_v3 main_v7
  let main_v9 : FVec F S1024x512 .f32 := Host.absf main_arg3
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_v13 main_v16
-- ==== Kernel.lean ====
abbrev S64x128x512 : Shape := ⟨3, ![64, 128, 512]⟩
abbrev S64x512x1024 : Shape := ⟨3, ![64, 512, 1024]⟩
abbrev S64x512 : Shape := ⟨2, ![64, 512]⟩
abbrev S1024x512 : Shape := ⟨2, ![1024, 512]⟩
abbrev S512 : Shape := ⟨1, ![512]⟩
abbrev S1536x512 : Shape := ⟨2, ![1536, 512]⟩
abbrev S64x1x512 : Shape := ⟨3, ![64, 1, 512]⟩
abbrev S2x128x512 : Shape := ⟨3, ![2, 128, 512]⟩
abbrev S2x512x1024 : Shape := ⟨3, ![2, 512, 1024]⟩
abbrev S1024x1024 : Shape := ⟨2, ![1024, 1024]⟩
abbrev S2x512x512 : Shape := ⟨3, ![2, 512, 512]⟩
abbrev S1x1x512 : Shape := ⟨3, ![1, 1, 512]⟩
abbrev S2x128 : Shape := ⟨2, ![2, 128]⟩
abbrev S2x128x1 : Shape := ⟨3, ![2, 128, 1]⟩
abbrev S2x128x1024 : Shape := ⟨3, ![2, 128, 1024]⟩
abbrev S2x128x1536 : Shape := ⟨3, ![2, 128, 1536]⟩
abbrev S256x1536 : Shape := ⟨2, ![256, 1536]⟩
abbrev S256x512 : Shape := ⟨2, ![256, 512]⟩

abbrev nBuf : Space → Nat
  | .hbm => 14
  | .vmem => 15
  | .smem => 0
  | _ => 0

abbrev bufTy : (tb : Table) → Fin (tcTables nBuf tb) → BufTy
  | .hbm, ⟨0, _⟩ => ⟨S64x128x512, .f32⟩
  | .hbm, ⟨1, _⟩ => ⟨S64x512x1024, .f32⟩
  | .hbm, ⟨2, _⟩ => ⟨S64x512, .i32⟩
  | .hbm, ⟨3, _⟩ => ⟨S1024x512, .f32⟩
  | .hbm, ⟨4, _⟩ => ⟨S512, .f32⟩
  | .hbm, ⟨5, _⟩ => ⟨S1536x512, .f32⟩
  | .hbm, ⟨6, _⟩ => ⟨S64x512, .f32⟩
  | .hbm, ⟨7, _⟩ => ⟨S64x1x512, .f32⟩
  | .hbm, ⟨8, _⟩ => ⟨S64x128x512, .f32⟩
  | .hbm, ⟨9, _⟩ => ⟨S1024x512, .bf16⟩
  | .hbm, ⟨10, _⟩ => ⟨S1536x512, .bf16⟩
  | .hbm, ⟨11, _⟩ => ⟨S64x128x512, .f32⟩
  | .hbm, ⟨12, _⟩ => ⟨S64x128x512, .f32⟩
  | .hbm, ⟨13, _⟩ => ⟨S64x128x512, .f32⟩
  | .local _ .vmem, ⟨0, _⟩ => ⟨S2x128x512, .f32⟩
  | .local _ .vmem, ⟨1, _⟩ => ⟨S2x128x512, .f32⟩
  | .local _ .vmem, ⟨2, _⟩ => ⟨S2x512x1024, .f32⟩
  | .local _ .vmem, ⟨3, _⟩ => ⟨S2x512x1024, .f32⟩
  | .local _ .vmem, ⟨4, _⟩ => ⟨S2x128x512, .f32⟩
  | .local _ .vmem, ⟨5, _⟩ => ⟨S2x128x512, .f32⟩
  | .local _ .vmem, ⟨6, _⟩ => ⟨S1024x512, .bf16⟩
  | .local _ .vmem, ⟨7, _⟩ => ⟨S512, .f32⟩
  | .local _ .vmem, ⟨8, _⟩ => ⟨S1536x512, .bf16⟩
  | .local _ .vmem, ⟨9, _⟩ => ⟨S2x128x512, .f32⟩
  | .local _ .vmem, ⟨10, _⟩ => ⟨S2x128x512, .f32⟩
  | .local _ .vmem, ⟨11, _⟩ => ⟨S2x128x512, .f32⟩
  | .local _ .vmem, ⟨12, _⟩ => ⟨S2x128x512, .f32⟩
  | .local _ .vmem, ⟨13, _⟩ => ⟨S2x128x512, .f32⟩
  | .local _ .vmem, ⟨14, _⟩ => ⟨S2x128x512, .f32⟩
  | _, _ => ⟨S64x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S64x512_S64x1x512_0_2 : S64x512.BroadcastsInDim S64x1x512 (![0, 2] : Fin 2 → Fin S64x1x512.rank)
  bcast_S64x1x512_S64x128x512_0_1_2 : S64x1x512.BroadcastsInDim S64x128x512 (![0, 1, 2] : Fin 3 → Fin S64x128x512.rank)
  bitsLt_bf16_f32 : FTy.bits .bf16 < FTy.bits .f32
  inb_S2x128x512_S2x128x512_0_0_0 : ∀ a, (![0, 0, 0] : Fin 3 → Nat) a + S2x128x512.size a ≤ S2x128x512.size a
  h_S2x128x512 : 0 < S2x128x512.numel
  inb_S2x512x1024_S2x512x1024_0_0_0 : ∀ a, (![0, 0, 0] : Fin 3 → Nat) a + S2x512x1024.size a ≤ S2x512x1024.size a
  h_S2x512x1024 : 0 < S2x512x1024.numel
  shapeCasts_S2x128x512_S2x128x512 : S2x128x512.ShapeCasts S2x128x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  shapeCasts_S2x512x1024_S1024x1024 : S2x512x1024.ShapeCasts S1024x1024
  shapeCasts_S1024x512_S2x512x512 : S1024x512.ShapeCasts S2x512x512
  shapeCasts_S512_S1x1x512 : S512.ShapeCasts S1x1x512
  broadcasts_S1x1x512_S2x512x512 : S1x1x512.Broadcasts S2x512x512
  reduces_S2x128x512_S2x128 : S2x128x512.Reduces [2] S2x128
  shapeCasts_S2x128_S2x128x1 : S2x128.ShapeCasts S2x128x1
  broadcasts_S2x128x1_S2x128x512 : S2x128x1.Broadcasts S2x128x512
  concatenates_S2x128x1024_S2x128x512_S2x128x1536_d2 : Shape.Concatenates [S2x128x1024, S2x128x512] S2x128x1536 2
  shapeCasts_S2x128x1536_S256x1536 : S2x128x1536.ShapeCasts S256x1536
  shapeCasts_S256x512_S2x128x512 : S256x512.ShapeCasts S2x128x512
  dot_S1024x1024_S1024x512_S1024x512_1_0_0_1_n_n_wf : DotDims.WF S1024x1024 S1024x512 S1024x512 [1] [0] [0] [1] [] []
  dot_S2x128x512_S2x512x512_S2x128x512_2_2_1_1_0_0_wf : DotDims.WF S2x128x512 S2x512x512 S2x128x512 [2] [2] [1] [1] [0] [0]
  dot_S2x128x512_S2x512x1024_S2x128x1024_2_1_1_2_0_0_wf : DotDims.WF S2x128x512 S2x512x1024 S2x128x1024 [2] [1] [1] [2] [0] [0]
  dot_S256x1536_S1536x512_S256x512_1_0_0_1_n_n_wf : DotDims.WF S256x1536 S1536x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128x512.size a ≤ S64x128x512.size a
  hwx0_0 : ∀ i : grid0.Coords, EltTy.bits .f32 = 32 ∨ (Rect.block (s := S64x128x512) S2x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x1024.size a ≤ S64x512x1024.size a
  hwx0_1 : ∀ i : grid0.Coords, EltTy.bits .f32 = 32 ∨ (Rect.block (s := S64x512x1024) S2x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x128x512.size a ≤ S64x128x512.size a
  hwx0_2 : ∀ i : grid0.Coords, EltTy.bits .f32 = 32 ∨ (Rect.block (s := S64x128x512) S2x128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1536x512.size a ≤ S1536x512.size a
  hwx0_5 : ∀ i : grid0.Coords, EltTy.bits .bf16 = 32 ∨ (Rect.block (s := S1536x512) S1536x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x128x512.size a ≤ S64x128x512.size a
  hwx0_6 : ∀ i : grid0.Coords, EltTy.bits .f32 = 32 ∨ (Rect.block (s := S64x128x512) S2x128x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x128x512.size a ≤ S64x128x512.size a
  hwx0_7 : ∀ i : grid0.Coords, EltTy.bits .f32 = 32 ∨ (Rect.block (s := S64x128x512) S2x128x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x128x512.size a ≤ S64x128x512.size a
  hwx0_8 : ∀ i : grid0.Coords, EltTy.bits .f32 = 32 ∨ (Rect.block (s := S64x128x512) S2x128x512.size (cc0_transform_8 i) (hinb0_8 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S2x128x512_S2x512x512_S2x128x512_2_2_1_1_0_0 : DotDims S2x128x512 S2x512x512 S2x128x512 where
  lhsContracting := [2]
  rhsContracting := [2]
  lhsNonContracting := [1]
  rhsNonContracting := [1]
  lhsBatch := [0]
  rhsBatch := [0]
  wf := dot_S2x128x512_S2x512x512_S2x128x512_2_2_1_1_0_0_wf
def dot_S2x128x512_S2x512x1024_S2x128x1024_2_1_1_2_0_0 : DotDims S2x128x512 S2x512x1024 S2x128x1024 where
  lhsContracting := [2]
  rhsContracting := [1]
  lhsNonContracting := [1]
  rhsNonContracting := [2]
  lhsBatch := [0]
  rhsBatch := [0]
  wf := dot_S2x128x512_S2x512x1024_S2x128x1024_2_1_1_2_0_0_wf
def dot_S256x1536_S1536x512_S256x512_1_0_0_1_n_n : DotDims S256x1536 S1536x512 S256x512 where
  lhsContracting := [1]
  rhsContracting := [0]
  lhsNonContracting := [0]
  rhsNonContracting := [1]
  lhsBatch := []
  rhsBatch := []
  wf := dot_S256x1536_S1536x512_S256x512_1_0_0_1_n_n_wf

abbrev win0_0 : Pipeline.Window sig grid0 :=
  Pipeline.Window.ofSpec (Memref.whole main_arg0) S2x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1536x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S2x128x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S2x128x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_2) S2x128x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x128x512 : Shape := ⟨3, ![64, 128, 512]⟩
abbrev S64x512x1024 : Shape := ⟨3, ![64, 512, 1024]⟩
abbrev S64x512 : Shape := ⟨2, ![64, 512]⟩
abbrev S1024x512 : Shape := ⟨2, ![1024, 512]⟩
abbrev S512 : Shape := ⟨1, ![512]⟩
abbrev S1536x512 : Shape := ⟨2, ![1536, 512]⟩
abbrev S64x512x512 : Shape := ⟨3, ![64, 512, 512]⟩
abbrev S1x1x512 : Shape := ⟨3, ![1, 1, 512]⟩
abbrev S64x512x1 : Shape := ⟨3, ![64, 512, 1]⟩
abbrev S_ : Shape := ⟨0, ![]⟩
abbrev S64x1x512 : Shape := ⟨3, ![64, 1, 512]⟩
abbrev S64x128 : Shape := ⟨2, ![64, 128]⟩
abbrev S64x128x1 : Shape := ⟨3, ![64, 128, 1]⟩
abbrev S64x128x1024 : Shape := ⟨3, ![64, 128, 1024]⟩
abbrev S64x128x1536 : Shape := ⟨3, ![64, 128, 1536]⟩

abbrev nBuf : Space → Nat
  | .hbm => 42
  | .vmem => 0
  | .smem => 0
  | _ => 0

abbrev bufTy : (tb : Table) → Fin (tcTables nBuf tb) → BufTy
  | .hbm, ⟨0, _⟩ => ⟨S64x128x512, .f32⟩
  | .hbm, ⟨1, _⟩ => ⟨S64x512x1024, .f32⟩
  | .hbm, ⟨2, _⟩ => ⟨S64x512, .i32⟩
  | .hbm, ⟨3, _⟩ => ⟨S1024x512, .f32⟩
  | .hbm, ⟨4, _⟩ => ⟨S512, .f32⟩
  | .hbm, ⟨5, _⟩ => ⟨S1536x512, .f32⟩
  | .hbm, ⟨6, _⟩ => ⟨S64x512, .f32⟩
  | .hbm, ⟨7, _⟩ => ⟨S64x512x512, .f32⟩
  | .hbm, ⟨8, _⟩ => ⟨S1x1x512, .f32⟩
  | .hbm, ⟨9, _⟩ => ⟨S64x512x512, .f32⟩
  | .hbm, ⟨10, _⟩ => ⟨S64x512x512, .f32⟩
  | .hbm, ⟨11, _⟩ => ⟨S64x512x1, .f32⟩
  | .hbm, ⟨12, _⟩ => ⟨S64x512x512, .f32⟩
  | .hbm, ⟨13, _⟩ => ⟨S64x512x512, .f32⟩
  | .hbm, ⟨14, _⟩ => ⟨S64x128x512, .f32⟩
  | .hbm, ⟨15, _⟩ => ⟨S_, .f32⟩
  | .hbm, ⟨16, _⟩ => ⟨S64x512, .f32⟩
  | .hbm, ⟨17, _⟩ => ⟨S64x512, .f32⟩
  | .hbm, ⟨18, _⟩ => ⟨S64x1x512, .f32⟩
  | .hbm, ⟨19, _⟩ => ⟨S_, .f32⟩
  | .hbm, ⟨20, _⟩ => ⟨S64x1x512, .f32⟩
  | .hbm, ⟨21, _⟩ => ⟨S64x1x512, .f32⟩
  | .hbm, ⟨22, _⟩ => ⟨S64x128x512, .f32⟩
  | .hbm, ⟨23, _⟩ => ⟨S64x128x512, .f32⟩
  | .hbm, ⟨24, _⟩ => ⟨S_, .f32⟩
  | .hbm, ⟨25, _⟩ => ⟨S64x128, .f32⟩
  | .hbm, ⟨26, _⟩ => ⟨S_, .f32⟩
  | .hbm, ⟨27, _⟩ => ⟨S64x128, .f32⟩
  | .hbm, ⟨28, _⟩ => ⟨S64x128, .f32⟩
  | .hbm, ⟨29, _⟩ => ⟨S64x128x1, .f32⟩
  | .hbm, ⟨30, _⟩ => ⟨S64x128x512, .f32⟩
  | .hbm, ⟨31, _⟩ => ⟨S64x128x512, .f32⟩
  | .hbm, ⟨32, _⟩ => ⟨S64x128x512, .f32⟩
  | .hbm, ⟨33, _⟩ => ⟨S_, .f32⟩
  | .hbm, ⟨34, _⟩ => ⟨S64x128, .f32⟩
  | .hbm, ⟨35, _⟩ => ⟨S64x128x1, .f32⟩
  | .hbm, ⟨36, _⟩ => ⟨S64x128x512, .f32⟩
  | .hbm, ⟨37, _⟩ => ⟨S64x128x512, .f32⟩
  | .hbm, ⟨38, _⟩ => ⟨S64x128x1024, .f32⟩
  | .hbm, ⟨39, _⟩ => ⟨S64x128x1536, .f32⟩
  | .hbm, ⟨40, _⟩ => ⟨S64x128x512, .f32⟩
  | .hbm, ⟨41, _⟩ => ⟨S64x128x512, .f32⟩
  | _, _ => ⟨S64x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S64x512x512_0_1_2 : S1x1x512.BroadcastsInDim S64x512x512 (![0, 1, 2] : Fin 3 → Fin S64x512x512.rank)
  bcast_S64x512_S64x512x1_0_1 : S64x512.BroadcastsInDim S64x512x1 (![0, 1] : Fin 2 → Fin S64x512x1.rank)
  bcast_S64x512x1_S64x512x512_0_1_2 : S64x512x1.BroadcastsInDim S64x512x512 (![0, 1, 2] : Fin 3 → Fin S64x512x512.rank)
  bcast_S_S64x512 : S_.BroadcastsInDim S64x512 (![] : Fin 0 → Fin S64x512.rank)
  bcast_S64x512_S64x1x512_0_2 : S64x512.BroadcastsInDim S64x1x512 (![0, 2] : Fin 2 → Fin S64x1x512.rank)
  bcast_S_S64x1x512 : S_.BroadcastsInDim S64x1x512 (![] : Fin 0 → Fin S64x1x512.rank)
  bcast_S64x1x512_S64x128x512_0_1_2 : S64x1x512.BroadcastsInDim S64x128x512 (![0, 1, 2] : Fin 3 → Fin S64x128x512.rank)
  reducesTo_S64x128x512_S64x128_d2 : S64x128x512.ReducesTo [2] S64x128
  h_S_ : 0 < S_.numel
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  bcast_S64x128x1_S64x128x512_0_1_2 : S64x128x1.BroadcastsInDim S64x128x512 (![0, 1, 2] : Fin 3 → Fin S64x128x512.rank)
  concatenates_S64x128x1024_S64x128x512_S64x128x1536_d2 : Shape.Concatenates [S64x128x1024, S64x128x512] S64x128x1536 2
  dot_S64x512x1024_S1024x512_S64x512x512_2_0_01_1_n_n_wf : DotDims.WF S64x512x1024 S1024x512 S64x512x512 [2] [0] [0, 1] [1] [] []
  dot_S64x128x512_S64x512x512_S64x128x512_2_2_1_1_0_0_wf : DotDims.WF S64x128x512 S64x512x512 S64x128x512 [2] [2] [1] [1] [0] [0]
  dot_S64x128x512_S64x512x1024_S64x128x1024_2_1_1_2_0_0_wf : DotDims.WF S64x128x512 S64x512x1024 S64x128x1024 [2] [1] [1] [2] [0] [0]
  dot_S64x128x1536_S1536x512_S64x128x512_2_0_01_1_n_n_wf : DotDims.WF S64x128x1536 S1536x512 S64x128x512 [2] [0] [0, 1] [1] [] []

variable [Facts₀]

def dot_S64x512x1024_S1024x512_S64x512x512_2_0_01_1_n_n : DotDims S64x512x1024 S1024x512 S64x512x512 where
  lhsContracting := [2]
  rhsContracting := [0]
  lhsNonContracting := [0, 1]
  rhsNonContracting := [1]
  lhsBatch := []
  rhsBatch := []
  wf := dot_S64x512x1024_S1024x512_S64x512x512_2_0_01_1_n_n_wf
def dot_S64x128x512_S64x512x512_S64x128x512_2_2_1_1_0_0 : DotDims S64x128x512 S64x512x512 S64x128x512 where
  lhsContracting := [2]
  rhsContracting := [2]
  lhsNonContracting := [1]
  rhsNonContracting := [1]
  lhsBatch := [0]
  rhsBatch := [0]
  wf := dot_S64x128x512_S64x512x512_S64x128x512_2_2_1_1_0_0_wf
def dot_S64x128x512_S64x512x1024_S64x128x1024_2_1_1_2_0_0 : DotDims S64x128x512 S64x512x1024 S64x128x1024 where
  lhsContracting := [2]
  rhsContracting := [1]
  lhsNonContracting := [1]
  rhsNonContracting := [2]
  lhsBatch := [0]
  rhsBatch := [0]
  wf := dot_S64x128x512_S64x512x1024_S64x128x1024_2_1_1_2_0_0_wf
def dot_S64x128x1536_S1536x512_S64x128x512_2_0_01_1_n_n : DotDims S64x128x1536 S1536x512 S64x128x512 where
  lhsContracting := [2]
  rhsContracting := [0]
  lhsNonContracting := [0, 1]
  rhsNonContracting := [1]
  lhsBatch := []
  rhsBatch := []
  wf := dot_S64x128x1536_S1536x512_S64x128x512_2_0_01_1_n_n_wf

class Facts : Prop extends Facts₀ where

variable [Facts]
-- ==== Proof.Finite.lean ====
/-
  Finiteness. The precondition says of each float input that every entry's absolute value is below +∞;
  an extended real whose absolute value `max x (−x)` is below +∞ is a real number. The precondition is a
  conjunction of five `all`s; each `all` that is 1 had a 1 at every entry, and the entry's 1 is that comparison.
  Sums and products of real numbers are real numbers, so every value the programs compute from the inputs by
  finite sums and products is one too, and the integer mask converts to a real number by definition.
-/
import proofs.«418906_j51041391345689_3_alg».proof.Pre_finite_inputs
import Idealize.ShloMosaic.Lib.ReduceAll
import Idealize.ShloMosaic.Lib.IdealHost
import Idealize.ShloMosaic.Lib.ValueIdx
import Idealize.ShloMosaic.PureOps.Ideal

noncomputable section

namespace Cert.Finite

open Idealize.ShloMosaic

/-- An extended real that is a real number. -/
def IsFin (x : EReal) : Prop := ∃ r : ℝ, x = (r : EReal)

theorem IsFin.coe (r : ℝ) : IsFin (r : EReal) := ⟨r, rfl⟩

theorem IsFin.add {x y : EReal} (hx : IsFin x) (hy : IsFin y) : IsFin (x + y) := by
  obtain ⟨a, rfl⟩ := hx; obtain ⟨b, rfl⟩ := hy; exact ⟨a + b, (EReal.coe_add a b).symm⟩

theorem IsFin.mul {x y : EReal} (hx : IsFin x) (hy : IsFin y) : IsFin (x * y) := by
  obtain ⟨a, rfl⟩ := hx; obtain ⟨b, rfl⟩ := hy; exact ⟨a * b, (EReal.coe_mul a b).symm⟩

theorem IsFin.sum {ι : Type} (s : Finset ι) (f : ι → EReal) (h : ∀ i, IsFin (f i)) : IsFin (∑ i ∈ s, f i) := by
  classical
  induction s using Finset.induction_on with
  | empty => exact ⟨0, by simp⟩
  | insert a s ha ih => rw [Finset.sum_insert ha]; exact (h a).add ih

/-- The integer mask's conversion is a real number. -/
theorem isFin_sitofp (b : BitVec 32) : IsFin (FloatOps.sitofp (F := Ideal) .f32 b) := ⟨(b.toInt : ℝ), rfl⟩

/-- The word 0x7F800000 is +∞. -/
theorem ofBits_posInf : Ideal.ofBits .f32 0x7F800000#32 = (⊤ : EReal) := by simp [Ideal.ofBits, Ideal.ieee]

/-- An entry whose absolute value compares below +∞ is a real number. -/
theorem isFin_of_abs_lt (x : EReal) (h : Ideal.cmp .olt (max x (-x)) (Ideal.ofBits .f32 0x7F800000#32) = 1#1) : IsFin x := by
  rw [ofBits_posInf] at h
  have hlt : max x (-x) < ⊤ := by
    by_contra hc
    simp [Ideal.cmp, hc] at h
  induction x using EReal.rec with
  | bot => simp at hlt
  | top => simp at hlt
  | coe r => exact ⟨r, rfl⟩

instance : Subsingleton Cert.Pre_finite_inputs.S_.Idx := ⟨fun a b => funext fun d => d.elim0⟩

variable [Cert.Pre_finite_inputs.Facts]

open Cert.Pre_finite_inputs Cert.Pre_finite_inputs.Facts

/-- One `all` of the precondition: if the reduction by `and` of "|a i| < +∞" over every index is 1, every entry is a real. -/
theorem all_isFin {s : Shape} {axes : List (Fin s.rank)} (a : FVec Ideal s .f32) (hb : S_.BroadcastsInDim s (![] : Fin 0 → Fin s.rank))
    (hr : s.ReducesTo axes S_) (hu : 0 < S_.numel)
    (e : Host.reduce IntOp.andi (cmpf .olt (Host.absf a) (broadcastInDim s ![] hb (constant (F := Ideal) S_ .f32 0x7F800000#32))) (constantI S_ 1 1#1) hr hu ValueIdx.ix0 = 1#1)
    (i : s.Idx) : IsFin (a i) := by
  have hi := Host.reduce_andi_all _ _ hr hu ValueIdx.ix0 e i
  refine isFin_of_abs_lt (a i) ?_
  have hc : broadcastInDim s ![] hb (constant (F := Ideal) S_ .f32 0x7F800000#32) i = Ideal.ofBits .f32 0x7F800000#32 :=
    ValueIdx.broadcastInDim_scalar_apply hb _ i
  have : Ideal.cmp .olt (max (a i) (-(a i))) (broadcastInDim s ![] hb (constant (F := Ideal) S_ .f32 0x7F800000#32) i) = 1#1 := hi
  rw [hc] at this
  exact this

/-- Under the precondition every entry of every float input is a real number. -/
theorem finite_of_pre (a0 : FVec Ideal S64x128x512 .f32) (a1 : FVec Ideal S64x512x1024 .f32) (a2 : IVec S64x512 32)
    (a3 : FVec Ideal S1024x512 .f32) (a4 : FVec Ideal S512 .f32) (a5 : FVec Ideal S1536x512 .f32)
    (h : fn (F := Ideal) a0 a1 a2 a3 a4 a5 = fun _ => 1#1) :
    (∀ i, IsFin (a0 i)) ∧ (∀ i, IsFin (a1 i)) ∧ (∀ i, IsFin (a3 i)) ∧ (∀ i, IsFin (a4 i)) ∧ (∀ i, IsFin (a5 i)) := by
  have h0 := congrFun h ValueIdx.ix0
  dsimp only [fn, fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨all_isFin a0 _ _ _ h1, all_isFin a1 _ _ _ h2, all_isFin a3 _ _ _ h3, all_isFin a4 _ _ _ h4, all_isFin a5 _ _ _ h5⟩

end Cert.Finite

end
-- ==== Proof.Stages.lean ====
/-
  The kernel body's three stored values, cut into the five stages of the attention computation, each a
  function of the blocks the body loads: the projection of the encoder block (`proj`), the masked energies
  (`energy`), their softmax along the source axis (`softmax`), the context (`context`) and the output
  projection with its tanh (`outp`). Each cut is definitional: the printed payloads are these compositions.
-/
import proofs.«418906_j51041391345689_3_alg».proof.Proof.Gen.KernelIdeal.Skeleton
import Idealize.ShloMosaic.PureOps.Ideal

noncomputable section

namespace Cert.KernelIdeal.Stages

open Cert.KernelIdeal Cert.KernelIdeal.Gen Idealize.ShloMosaic

/-- `enc · W_attn + b_attn` on a block of two batches: the encoder block flattened to 1024 rows, multiplied
    by the weight, unflattened, the bias added along the last axis. -/
def proj (v1 : FVec Ideal S2x512x1024 .f32) (v4 : FVec Ideal S1024x512 .bf16) (v6 : FVec Ideal S512 .f32) : FVec Ideal S2x512x512 .f32 :=
  addf (shapeCast S2x512x512 (matmul dot_S1024x1024_S1024x512_S1024x512_1_0_0_1_n_n none (shapeCast S1024x1024 (truncf .bf16 v1 bitsLt_bf16_f32) shapeCasts_S2x512x1024_S1024x1024) (shapeCast S1024x512 v4 shapeCasts_S1024x512_S1024x512) (constant S1024x512 .f32 0x00000000#32)) shapeCasts_S1024x512_S2x512x512)
    (broadcastTo S2x512x512 (shapeCast S1x1x512 v6 shapeCasts_S512_S1x1x512) broadcasts_S1x1x512_S2x512x512)

/-- The masked energies: per batch `dec · projᵀ`, times the mask, plus −1.0e10 where the mask is 0. -/
def energy (v0 v2 : FVec Ideal S2x128x512 .f32) (P : FVec Ideal S2x512x512 .f32) : FVec Ideal S2x128x512 .f32 :=
  addf (mulf (matmul dot_S2x128x512_S2x512x512_S2x128x512_2_2_1_1_0_0 none (truncf .bf16 v0 bitsLt_bf16_f32) (truncf .bf16 P bitsLt_bf16_f32) (constant S2x128x512 .f32 0x00000000#32)) (shapeCast S2x128x512 v2 shapeCasts_S2x128x512_S2x128x512))
    (mulf (broadcast S2x128x512 (Scalar.ofBits .f32 0xD01502F9#32)) (subf (broadcast S2x128x512 (Scalar.ofBits .f32 0x3F800000#32)) (shapeCast S2x128x512 v2 shapeCasts_S2x128x512_S2x128x512)))

/-- The softmax of the energies along the last axis: shift by the row maximum, exponentiate, divide by the row sum. -/
def softmax (E : FVec Ideal S2x128x512 .f32) : FVec Ideal S2x128x512 .f32 :=
  divf (exp (subf E (broadcastTo S2x128x512 (shapeCast S2x128x1 (multiReduction .maximumf [2] S2x128 E 0xFF800000#32 reduces_S2x128x512_S2x128 (.inl rfl) rfl) shapeCasts_S2x128_S2x128x1) broadcasts_S2x128x1_S2x128x512)))
    (broadcastTo S2x128x512 (shapeCast S2x128x1 (multiReduction .add [2] S2x128 (exp (subf E (broadcastTo S2x128x512 (shapeCast S2x128x1 (multiReduction .maximumf [2] S2x128 E 0xFF800000#32 reduces_S2x128x512_S2x128 (.inl rfl) rfl) shapeCasts_S2x128_S2x128x1) broadcasts_S2x128x1_S2x128x512))) 0x00000000#32 reduces_S2x128x512_S2x128 (.inl rfl) rfl) shapeCasts_S2x128_S2x128x1) broadcasts_S2x128x1_S2x128x512)

/-- The context: per batch the attention weights times the encoder block. -/
def context (A : FVec Ideal S2x128x512 .f32) (v1 : FVec Ideal S2x512x1024 .f32) : FVec Ideal S2x128x1024 .f32 :=
  matmul dot_S2x128x512_S2x512x1024_S2x128x1024_2_1_1_2_0_0 none (truncf .bf16 A bitsLt_bf16_f32) (truncf .bf16 v1 bitsLt_bf16_f32) (constant S2x128x1024 .f32 0x00000000#32)

/-- The output: context and decoder block joined along the last axis, flattened to 256 rows, multiplied by the
    output weight, tanh, unflattened. -/
def outp (C : FVec Ideal S2x128x1024 .f32) (v0 : FVec Ideal S2x128x512 .f32) (v7 : FVec Ideal S1536x512 .bf16) : FVec Ideal S2x128x512 .f32 :=
  shapeCast S2x128x512 (tanh (matmul dot_S256x1536_S1536x512_S256x512_1_0_0_1_n_n none (truncf .bf16 (shapeCast S256x1536 (concatenate S2x128x1536 2 [⟨S2x128x1024, C⟩, ⟨S2x128x512, v0⟩] concatenates_S2x128x1024_S2x128x512_S2x128x1536_d2) shapeCasts_S2x128x1536_S256x1536) bitsLt_bf16_f32) (shapeCast S1536x512 v7 shapeCasts_S1536x512_S1536x512) (constant S256x512 .f32 0x00000000#32))) shapeCasts_S256x512_S2x128x512

variable (v0 : Vec Ideal S2x128x512 .f32) (v1 : Vec Ideal S2x512x1024 .f32) (v2 : Vec Ideal S2x128x512 .f32)
  (v4 : Vec Ideal S1024x512 .bf16) (v6 : Vec Ideal S512 .f32) (v7 : Vec Ideal S1536x512 .bf16)

/-- The stored energies are the energy stage of the projection stage. -/
theorem pay4_eq : k0_pay4 (F := Ideal) v0 v1 v2 v4 v6 = energy v0 v2 (proj v1 v4 v6) := rfl

/-- The stored attention weights are the softmax of the stored energies. -/
theorem pay5_eq : k0_pay5 (F := Ideal) v0 v1 v2 v4 v6 = softmax (k0_pay4 (F := Ideal) v0 v1 v2 v4 v6) := rfl

/-- The stored output is the output stage of the context of the stored attention weights. -/
theorem pay1_eq : k0_pay1 (F := Ideal) (k0_pay2 (F := Ideal) v7) (k0_pay6 (F := Ideal) v0 v1 v2 v4 v6)
    = outp (context (k0_pay5 (F := Ideal) v0 v1 v2 v4 v6) v1) v0 v7 := rfl

end Cert.KernelIdeal.Stages

end
-- ==== Proof.Spec.lean ====
/-
  The row-level functions both programs are read against, on the extended reals. A row of masked
  energies `E : Fin 512 → EReal` has the maximum `rowMax E` (the fold of `max` from −∞ over the row);
  its softmax at `s` is `exp (E s − rowMax E)` divided by the row's sum of those exponentials; and the
  row fed to the output projection is the 1024 context entries followed by the 512 decoder entries.
  The two float words the programs share — 1.0 and −1.0e10 — are kept as words: both sides carry the same one.
-/
import Idealize.ShloMosaic.PureOps.Ideal
import Idealize.ShloMosaic.PureOps.Ideal.Laws

noncomputable section

namespace Cert.Spec

open Idealize.ShloMosaic

/-- The word of −1.0e10, the finite stand-in for −∞ that both programs add at masked positions. -/
def negBig : EReal := Ideal.ofBits .f32 0xD01502F9#32
/-- The word of 1.0. -/
def one : EReal := Ideal.ofBits .f32 0x3F800000#32
/-- The word of −∞, from which both programs start the row maximum. -/
def negInf : EReal := Ideal.ofBits .f32 0xFF800000#32

/-- The maximum of a row of 512 energies, as the fold of `max` from −∞. -/
def rowMax (E : Fin 512 → EReal) : EReal := (Finset.univ : Finset (Fin 512)).fold max negInf E

/-- The softmax of a row at position `s`: the shifted exponential over the row's sum of shifted exponentials. -/
def softmaxRow (E : Fin 512 → EReal) (s : Fin 512) : EReal :=
  Ideal.div (Ideal.exp (E s - rowMax E)) (∑ s' : Fin 512, Ideal.exp (E s' - rowMax E))

/-- The row the output projection contracts: 1024 context entries, then 512 decoder entries. -/
def catRow (C : Fin 1024 → EReal) (D : Fin 512 → EReal) (c : Fin 1536) : EReal :=
  if h : c.val < 1024 then C ⟨c.val, h⟩ else D ⟨c.val - 1024, by have := c.isLt; omega⟩

/-- Starting the maximum from −∞ twice changes nothing: `max (−∞) (rowMax E) = rowMax E`. -/
theorem max_negInf_rowMax (E : Fin 512 → EReal) : max negInf (rowMax E) = rowMax E :=
  max_eq_right ((Finset.le_fold_max _).mpr (Or.inl le_rfl))

end Cert.Spec

end
-- ==== Proof.StageProjEnergy.lean ====
/-
  The kernel's first two stages read at an index.

  Projection. The encoder block [2,512,1024] is flattened row-major to [1024,1024], so that its entry
  (b, s, e) sits in row 512·b + s, column e. That matrix is multiplied by the [1024,512] weight into a zero
  accumulator, so entry (r, d) of the product is the sum over e of row r at e times the weight at (e, d).
  The product is unflattened row-major to [2,512,512], where entry (b, s, d) is row 512·b + s, column d; and
  the bias [512], viewed as [1,1,512] and repeated along the two leading axes, adds its entry d. Hence
  proj (b, s, d) = Σ_e enc (b, s, e) · W (e, d) + bias d.

  Energy. The batched product contracts the last axis of both operands with the leading axis as batch, so
  its entry (b, t, s) is the sum over d of dec (b, t, d) times proj (b, s, d); it is multiplied by the mask
  at (b, t, s), and the constant −1.0e10 times (1 − mask) is added. A change of float format is the
  identity on the extended reals, and reshaping a block to its own shape changes nothing.
-/
import proofs.«418906_j51041391345689_3_alg».proof.Proof.Stages
import proofs.«418906_j51041391345689_3_alg».proof.Proof.Spec
import Idealize.ShloMosaic.Lib.ValueIdx
import Idealize.ShloMosaic.Lib.Pipeline.Value
import Idealize.ShloMosaic.Lib.ValueLayout
import Idealize.ShloMosaic.PureOps.Ideal.Laws
noncomputable section
namespace Cert.KernelIdeal.Stages
open Cert.KernelIdeal Cert.KernelIdeal.Gen Idealize.ShloMosaic Idealize.ShloMosaic.ValueIdx Cert.Spec

/-! ## The layout steps of the projection -/

/-- Flattening [2,512,1024] to [1024,1024] row-major: row 512·b + s, column e is entry (b, s, e). -/
theorem flattenEnc_apply (x : FVec Ideal S2x512x1024 .bf16) (b : Fin 2) (s : Fin 512) (e : Fin 1024) :
    shapeCast S1024x1024 x shapeCasts_S2x512x1024_S1024x1024 (ix2 (⟨b.val * 512 + s.val, by omega⟩ : Fin 1024) e)
      = x (ix3 b s e) :=
  shapeCast_apply x shapeCasts_S2x512x1024_S1024x1024 _ _ (by
    rw [Shape.rowMajor_val_three, Shape.rowMajor_val_two]
    show (b.val * 512 + s.val) * 1024 + e.val = (b.val * 512 + s.val) * 1024 + e.val
    rfl)

/-- Unflattening [1024,512] to [2,512,512] row-major: entry (b, s, d) is row 512·b + s, column d. -/
theorem unflattenProj_apply (M : FVec Ideal S1024x512 .f32) (b : Fin 2) (s : Fin 512) (d : Fin 512) :
    shapeCast S2x512x512 M shapeCasts_S1024x512_S2x512x512 (ix3 b s d)
      = M (ix2 (⟨b.val * 512 + s.val, by omega⟩ : Fin 1024) d) :=
  shapeCast_apply M shapeCasts_S1024x512_S2x512x512 _ _ (by
    rw [Shape.rowMajor_val_two, Shape.rowMajor_val_three]
    show (b.val * 512 + s.val) * 512 + d.val = (b.val * 512 + s.val) * 512 + d.val
    rfl)

/-- The bias [512] viewed as [1,1,512] and repeated over the two leading axes reads its entry d at (b, s, d). -/
theorem biasRow_apply (v6 : FVec Ideal S512 .f32) (b : Fin 2) (s : Fin 512) (d : Fin 512) :
    broadcastTo S2x512x512 (shapeCast S1x1x512 v6 shapeCasts_S512_S1x1x512) broadcasts_S1x1x512_S2x512x512 (ix3 b s d)
      = v6 (ix1 d) := by
  refine (broadcastTo_apply _ broadcasts_S1x1x512_S2x512x512 (ix3 b s d) (ix3 (0 : Fin 1) (0 : Fin 1) d) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show d.val = if (512 : Nat) = 1 then 0 else d.val; rw [if_neg (by decide)])).trans ?_
  exact shapeCast_apply v6 shapeCasts_S512_S1x1x512 _ _ (by
    rw [Shape.rowMajor_val_one, Shape.rowMajor_val_three]
    show d.val = (0 * 1 + 0) * 512 + d.val
    omega)

/-! ## The projection's product: rows against columns -/

theorem projDot_lhs_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem projDot_lhs_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem projDot_rhs_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem projDot_rhs_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The [1024,1024] × [1024,512] product into a zero accumulator at (r, d): row r against column d. -/
theorem projDot_apply (L : FVec Ideal S1024x1024 .bf16) (R : FVec Ideal S1024x512 .bf16) (r : Fin 1024) (d : Fin 512) :
    matmul dot_S1024x1024_S1024x512_S1024x512_1_0_0_1_n_n none L R (constant (F := Ideal) S1024x512 .f32 0x00000000#32) (ix2 r d)
      = ∑ e : Fin 1024, L (ix2 r e) * R (ix2 e d) := by
  refine (Ideal.matmul_constant_zero_apply dot_S1024x1024_S1024x512_S1024x512_1_0_0_1_n_n none L R (ix2 r d)).trans ?_
  rw [← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 r d) ((ValueIdx.contrEquiv1 dot_S1024x1024_S1024x512_S1024x512_1_0_0_1_n_n 1024 rfl rfl).symm k) = ix2 r k := funext fun a => Fin.ext (by
    match a with
    | ⟨0, _⟩ => exact projDot_lhs_0 _ _
    | ⟨1, _⟩ => exact (projDot_lhs_1 _ _).trans hk)
  have er : dot_S1024x1024_S1024x512_S1024x512_1_0_0_1_n_n.rhsIdx (ix2 r d) ((ValueIdx.contrEquiv1 dot_S1024x1024_S1024x512_S1024x512_1_0_0_1_n_n 1024 rfl rfl).symm k) = ix2 k d := funext fun a => Fin.ext (by
    match a with
    | ⟨0, _⟩ => exact (projDot_rhs_0 _ _).trans hk
    | ⟨1, _⟩ => exact projDot_rhs_1 _ _)
  rw [el, er]

/-- The projection at (b, s, d): the encoder row (b, s) against column d of the weight, plus the bias at d. -/
theorem proj_apply (v1 : FVec Ideal S2x512x1024 .f32) (v4 : FVec Ideal S1024x512 .bf16) (v6 : FVec Ideal S512 .f32) (b : Fin 2) (s : Fin 512) (d : Fin 512) :
    proj v1 v4 v6 (ix3 b s d) = ((∑ e : Fin 1024, v1 (ix3 b s e) * v4 (ix2 e d)) + v6 (ix1 d) : EReal) := by
  unfold proj
  rw [addf_apply, biasRow_apply, unflattenProj_apply, projDot_apply]
  refine congrArg (· + v6 (ix1 d)) (Finset.sum_congr rfl fun e _ => ?_)
  rw [flattenEnc_apply, shapeCast_self v4 shapeCasts_S1024x512_S1024x512, truncf_apply]

/-! ## The energy's product: per batch, decoder rows against projected rows -/

theorem energyDot_lhs_0 (i : S2x128x512.Idx) (q : dot_S2x128x512_S2x512x512_S2x128x512_2_2_1_1_0_0.contr.Idx) :
    (dot_S2x128x512_S2x512x512_S2x128x512_2_2_1_1_0_0.lhsIdx i q 0).val = (i 0).val := by
  unfold DotDims.lhsIdx
  rw [dif_pos (show (0 : Fin S2x128x512.rank) ∈ dot_S2x128x512_S2x512x512_S2x128x512_2_2_1_1_0_0.lhsBatch by decide)]
  rfl
theorem energyDot_lhs_1 (i : S2x128x512.Idx) (q : dot_S2x128x512_S2x512x512_S2x128x512_2_2_1_1_0_0.contr.Idx) :
    (dot_S2x128x512_S2x512x512_S2x128x512_2_2_1_1_0_0.lhsIdx i q 1).val = (i 1).val := by
  unfold DotDims.lhsIdx
  rw [dif_neg (show ¬(1 : Fin S2x128x512.rank) ∈ dot_S2x128x512_S2x512x512_S2x128x512_2_2_1_1_0_0.lhsBatch by decide), dif_pos (show (1 : Fin S2x128x512.rank) ∈ dot_S2x128x512_S2x512x512_S2x128x512_2_2_1_1_0_0.lhsNonContracting by decide)]
  rfl
theorem energyDot_lhs_2 (i : S2x128x512.Idx) (q : dot_S2x128x512_S2x512x512_S2x128x512_2_2_1_1_0_0.contr.Idx) :
    (dot_S2x128x512_S2x512x512_S2x128x512_2_2_1_1_0_0.lhsIdx i q 2).val = (q ⟨0, by decide⟩).val :=
  dot_S2x128x512_S2x512x512_S2x128x512_2_2_1_1_0_0.lhsIdx_val_of_single rfl i q
theorem energyDot_rhs_0 (i : S2x128x512.Idx) (q : dot_S2x128x512_S2x512x512_S2x128x512_2_2_1_1_0_0.contr.Idx) :
    (dot_S2x128x512_S2x512x512_S2x128x512_2_2_1_1_0_0.rhsIdx i q 0).val = (i 0).val := by
  unfold DotDims.rhsIdx
  rw [dif_pos (show (0 : Fin S2x512x512.rank) ∈ dot_S2x128x512_S2x512x512_S2x128x512_2_2_1_1_0_0.rhsBatch by decide)]
  rfl
theorem energyDot_rhs_1 (i : S2x128x512.Idx) (q : dot_S2x128x512_S2x512x512_S2x128x512_2_2_1_1_0_0.contr.Idx) :
    (dot_S2x128x512_S2x512x512_S2x128x512_2_2_1_1_0_0.rhsIdx i q 1).val = (i 2).val := by
  unfold DotDims.rhsIdx
  rw [dif_neg (show ¬(1 : Fin S2x512x512.rank) ∈ dot_S2x128x512_S2x512x512_S2x128x512_2_2_1_1_0_0.rhsBatch by decide), dif_pos (show (1 : Fin S2x512x512.rank) ∈ dot_S2x128x512_S2x512x512_S2x128x512_2_2_1_1_0_0.rhsNonContracting by decide)]
  rfl
theorem energyDot_rhs_2 (i : S2x128x512.Idx) (q : dot_S2x128x512_S2x512x512_S2x128x512_2_2_1_1_0_0.contr.Idx) :
    (dot_S2x128x512_S2x512x512_S2x128x512_2_2_1_1_0_0.rhsIdx i q 2).val = (q ⟨0, by decide⟩).val :=
  dot_S2x128x512_S2x512x512_S2x128x512_2_2_1_1_0_0.rhsIdx_val_of_single rfl i q

/-- The batched product into a zero accumulator at (b, t, s): row (b, t) of the left operand against row (b, s) of the right. -/
theorem energyDot_apply (L : FVec Ideal S2x128x512 .bf16) (R : FVec Ideal S2x512x512 .bf16) (b : Fin 2) (t : Fin 128) (s : Fin 512) :
    matmul dot_S2x128x512_S2x512x512_S2x128x512_2_2_1_1_0_0 none L R (constant (F := Ideal) S2x128x512 .f32 0x00000000#32) (ix3 b t s)
      = ∑ d : Fin 512, L (ix3 b t d) * R (ix3 b s d) := by
  refine (Ideal.matmul_constant_zero_apply dot_S2x128x512_S2x512x512_S2x128x512_2_2_1_1_0_0 none L R (ix3 b t s)).trans ?_
  rw [← Equiv.sum_comp (ValueIdx.contrEquiv1 dot_S2x128x512_S2x512x512_S2x128x512_2_2_1_1_0_0 512 rfl rfl).symm]
  refine Finset.sum_congr rfl fun k _ => ?_
  have hk := ValueIdx.contrEquiv1_symm_val dot_S2x128x512_S2x512x512_S2x128x512_2_2_1_1_0_0 512 rfl rfl k
  have el : dot_S2x128x512_S2x512x512_S2x128x512_2_2_1_1_0_0.lhsIdx (ix3 b t s) ((ValueIdx.contrEquiv1 dot_S2x128x512_S2x512x512_S2x128x512_2_2_1_1_0_0 512 rfl rfl).symm k) = ix3 b t k := funext fun a => Fin.ext (by
    match a with
    | ⟨0, _⟩ => exact energyDot_lhs_0 _ _
    | ⟨1, _⟩ => exact energyDot_lhs_1 _ _
    | ⟨2, _⟩ => exact (energyDot_lhs_2 _ _).trans hk)
  have er : dot_S2x128x512_S2x512x512_S2x128x512_2_2_1_1_0_0.rhsIdx (ix3 b t s) ((ValueIdx.contrEquiv1 dot_S2x128x512_S2x512x512_S2x128x512_2_2_1_1_0_0 512 rfl rfl).symm k) = ix3 b s k := funext fun a => Fin.ext (by
    match a with
    | ⟨0, _⟩ => exact energyDot_rhs_0 _ _
    | ⟨1, _⟩ => exact energyDot_rhs_1 _ _
    | ⟨2, _⟩ => exact (energyDot_rhs_2 _ _).trans hk)
  rw [el, er]

/-- The masked energy at (b, t, s): the decoder row (b, t) against the projected row (b, s), times the mask there, plus −1.0e10 · (1 − mask). -/
theorem energy_apply (v0 v2 : FVec Ideal S2x128x512 .f32) (P : FVec Ideal S2x512x512 .f32) (b : Fin 2) (t : Fin 128) (s : Fin 512) :
    energy v0 v2 P (ix3 b t s) = ((∑ d : Fin 512, v0 (ix3 b t d) * P (ix3 b s d)) * v2 (ix3 b t s) + negBig * (one - v2 (ix3 b t s)) : EReal) := by
  unfold energy
  rw [shapeCast_self v2 shapeCasts_S2x128x512_S2x128x512, addf_apply, mulf_apply, mulf_apply, subf_apply, broadcast_apply, broadcast_apply, energyDot_apply]
  simp only [truncf_apply]
  rfl

end Cert.KernelIdeal.Stages

end
-- ==== Proof.StageContextOut.lean ====
/-
  The kernel's last two stages read one element at a time, on the extended reals.

  Context. The attention weights `A` (two batches of 128 rows over 512 source positions) are multiplied, batch by
  batch, with the encoder block `v1` (two batches of 512 positions by 1024 features) into a zero accumulator, so the
  entry at batch `b`, row `t`, feature `e` is the sum over the source position `s` of `A (b, t, s) * v1 (b, s, e)`.
  Rounding to the narrower format is the identity here, so the two operands enter the sum as they are.

  Output. The context `C` and the decoder block `v0` are joined along the last axis: position `c` of the joined row
  `(b, t)` is `C (b, t, c)` when `c < 1024` and `v0 (b, t, c - 1024)` from there on, which is the row `catRow` names.
  The joined block is flattened to 256 rows (row `128 * b + t`), multiplied with the output weight `v7` (1536 by 512)
  into a zero accumulator, passed through tanh entry by entry, and the 256 rows are split again into two batches of
  128. Hence the entry at `(b, t, d)` is the tanh of the sum over `c` of the joined row at `c` times `v7 (c, d)`.
-/
import proofs.«418906_j51041391345689_3_alg».proof.Proof.Stages
import proofs.«418906_j51041391345689_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Stages

open Cert.KernelIdeal Cert.KernelIdeal.Gen Idealize.ShloMosaic Idealize.ShloMosaic.ValueIdx Cert.Spec

/-! ## The context: a batched product contracting the source axis -/

/-- The left operand's batch coordinate is the result's. -/
theorem lhs_context_0 (i : S2x128x1024.Idx) (q : dot_S2x128x512_S2x512x1024_S2x128x1024_2_1_1_2_0_0.contr.Idx) :
    (dot_S2x128x512_S2x512x1024_S2x128x1024_2_1_1_2_0_0.lhsIdx i q 0).val = (i 0).val := by
  unfold DotDims.lhsIdx
  rw [dif_pos (show (0 : Fin S2x128x512.rank) ∈ dot_S2x128x512_S2x512x1024_S2x128x1024_2_1_1_2_0_0.lhsBatch by decide)]
  rfl

/-- The left operand's row coordinate is the result's. -/
theorem lhs_context_1 (i : S2x128x1024.Idx) (q : dot_S2x128x512_S2x512x1024_S2x128x1024_2_1_1_2_0_0.contr.Idx) :
    (dot_S2x128x512_S2x512x1024_S2x128x1024_2_1_1_2_0_0.lhsIdx i q 1).val = (i 1).val := by
  unfold DotDims.lhsIdx
  rw [dif_neg (show ¬(1 : Fin S2x128x512.rank) ∈ dot_S2x128x512_S2x512x1024_S2x128x1024_2_1_1_2_0_0.lhsBatch by decide), dif_pos (show (1 : Fin S2x128x512.rank) ∈ dot_S2x128x512_S2x512x1024_S2x128x1024_2_1_1_2_0_0.lhsNonContracting by decide)]
  rfl

/-- The left operand's last coordinate is the contracted position. -/
theorem lhs_context_2 (i : S2x128x1024.Idx) (q : dot_S2x128x512_S2x512x1024_S2x128x1024_2_1_1_2_0_0.contr.Idx) :
    (dot_S2x128x512_S2x512x1024_S2x128x1024_2_1_1_2_0_0.lhsIdx i q 2).val = (q ⟨0, by decide⟩).val :=
  dot_S2x128x512_S2x512x1024_S2x128x1024_2_1_1_2_0_0.lhsIdx_val_of_single rfl i q

/-- The right operand's batch coordinate is the result's. -/
theorem rhs_context_0 (i : S2x128x1024.Idx) (q : dot_S2x128x512_S2x512x1024_S2x128x1024_2_1_1_2_0_0.contr.Idx) :
    (dot_S2x128x512_S2x512x1024_S2x128x1024_2_1_1_2_0_0.rhsIdx i q 0).val = (i 0).val := by
  unfold DotDims.rhsIdx
  rw [dif_pos (show (0 : Fin S2x512x1024.rank) ∈ dot_S2x128x512_S2x512x1024_S2x128x1024_2_1_1_2_0_0.rhsBatch by decide)]
  rfl

/-- The right operand's middle coordinate is the contracted position. -/
theorem rhs_context_1 (i : S2x128x1024.Idx) (q : dot_S2x128x512_S2x512x1024_S2x128x1024_2_1_1_2_0_0.contr.Idx) :
    (dot_S2x128x512_S2x512x1024_S2x128x1024_2_1_1_2_0_0.rhsIdx i q 1).val = (q ⟨0, by decide⟩).val :=
  dot_S2x128x512_S2x512x1024_S2x128x1024_2_1_1_2_0_0.rhsIdx_val_of_single rfl i q

/-- The right operand's last coordinate is the result's feature coordinate. -/
theorem rhs_context_2 (i : S2x128x1024.Idx) (q : dot_S2x128x512_S2x512x1024_S2x128x1024_2_1_1_2_0_0.contr.Idx) :
    (dot_S2x128x512_S2x512x1024_S2x128x1024_2_1_1_2_0_0.rhsIdx i q 2).val = (i 2).val := by
  unfold DotDims.rhsIdx
  rw [dif_neg (show ¬(2 : Fin S2x512x1024.rank) ∈ dot_S2x128x512_S2x512x1024_S2x128x1024_2_1_1_2_0_0.rhsBatch by decide), dif_pos (show (2 : Fin S2x512x1024.rank) ∈ dot_S2x128x512_S2x512x1024_S2x128x1024_2_1_1_2_0_0.rhsNonContracting by decide)]
  rfl

/-- The context at (b, t, e): the attention row (b, t) against column e of the encoder block of batch b. -/
theorem context_apply (A : FVec Ideal S2x128x512 .f32) (v1 : FVec Ideal S2x512x1024 .f32) (b : Fin 2) (t : Fin 128) (e : Fin 1024) :
    context A v1 (ix3 b t e) = (∑ s : Fin 512, A (ix3 b t s) * v1 (ix3 b s e) : EReal) := by
  unfold context
  refine (Ideal.matmul_constant_zero_apply dot_S2x128x512_S2x512x1024_S2x128x1024_2_1_1_2_0_0 none _ _ (ix3 b t e)).trans ?_
  rw [← Equiv.sum_comp (contrEquiv1 dot_S2x128x512_S2x512x1024_S2x128x1024_2_1_1_2_0_0 512 rfl rfl).symm]
  refine Finset.sum_congr rfl fun k _ => ?_
  have hk := contrEquiv1_symm_val dot_S2x128x512_S2x512x1024_S2x128x1024_2_1_1_2_0_0 512 rfl rfl k
  have el : dot_S2x128x512_S2x512x1024_S2x128x1024_2_1_1_2_0_0.lhsIdx (ix3 b t e) ((contrEquiv1 dot_S2x128x512_S2x512x1024_S2x128x1024_2_1_1_2_0_0 512 rfl rfl).symm k) = ix3 b t k := funext fun a => Fin.ext (by
    match a with
    | ⟨0, _⟩ => exact lhs_context_0 _ _
    | ⟨1, _⟩ => exact lhs_context_1 _ _
    | ⟨2, _⟩ => exact (lhs_context_2 _ _).trans hk)
  have er : dot_S2x128x512_S2x512x1024_S2x128x1024_2_1_1_2_0_0.rhsIdx (ix3 b t e) ((contrEquiv1 dot_S2x128x512_S2x512x1024_S2x128x1024_2_1_1_2_0_0 512 rfl rfl).symm k) = ix3 b k e := funext fun a => Fin.ext (by
    match a with
    | ⟨0, _⟩ => exact rhs_context_0 _ _
    | ⟨1, _⟩ => exact (rhs_context_1 _ _).trans hk
    | ⟨2, _⟩ => exact rhs_context_2 _ _)
  rw [el, er]
  rfl

/-! ## The output: join, flatten, multiply, tanh, unflatten -/

/-- The joined block at (b, t, c) is the joined row of `catRow` at c: the context below 1024, the decoder block from there on. -/
theorem joined_apply (C : FVec Ideal S2x128x1024 .f32) (v0 : FVec Ideal S2x128x512 .f32) (b : Fin 2) (t : Fin 128) (c : Fin 1536) :
    concatenate S2x128x1536 2 [⟨S2x128x1024, C⟩, ⟨S2x128x512, v0⟩] concatenates_S2x128x1024_S2x128x512_S2x128x1536_d2 (ix3 b t c)
      = catRow (fun e => C (ix3 b t e)) (fun d' => v0 (ix3 b t d')) c := by
  unfold catRow
  by_cases h : c.val < 1024
  · rw [dif_pos h]
    exact concatenate_pair_apply_left (t := S2x128x1536) (s₁ := S2x128x1024) (s₂ := S2x128x512) 2 C v0
      concatenates_S2x128x1024_S2x128x512_S2x128x1536_d2 (ix3 b t c) rfl (ix3 b t ⟨c.val, h⟩) (fun a => by
        match a with
        | ⟨0, _⟩ => rfl
        | ⟨1, _⟩ => rfl
        | ⟨2, _⟩ => rfl)
  · rw [dif_neg h]
    exact concatenate_pair_apply_right (t := S2x128x1536) (s₁ := S2x128x1024) (s₂ := S2x128x512) 2 C v0
      concatenates_S2x128x1024_S2x128x512_S2x128x1536_d2 (ix3 b t c) rfl rfl
      (ix3 b t ⟨c.val - 1024, by have := c.isLt; omega⟩)
      (fun a ha => by
        match a with
        | ⟨0, _⟩ => rfl
        | ⟨1, _⟩ => rfl
        | ⟨2, _⟩ => exact absurd rfl ha)
      (by show (c.val - 1024) + 1024 = c.val; omega)

/-- Flattening two batches of 128 rows of 1536 to 256 rows: row `128 * b + t` is row t of batch b. -/
theorem flatten_apply {α : Type} (x : S2x128x1536.Idx → α) (b : Fin 2) (t : Fin 128) (c : Fin 1536) :
    shapeCast S256x1536 x shapeCasts_S2x128x1536_S256x1536 (ix2 (⟨128 * b.val + t.val, by omega⟩ : Fin 256) c) = x (ix3 b t c) :=
  shapeCast_apply x shapeCasts_S2x128x1536_S256x1536 _ (ix3 b t c) (by
    rw [Shape.rowMajor_val_three, Shape.rowMajor_val_two]
    show (b.val * 128 + t.val) * 1536 + c.val = (128 * b.val + t.val) * 1536 + c.val
    omega)

/-- Splitting 256 rows of 512 into two batches of 128 rows: row t of batch b is row `128 * b + t`. -/
theorem unflatten_apply {α : Type} (x : S256x512.Idx → α) (b : Fin 2) (t : Fin 128) (d : Fin 512) :
    shapeCast S2x128x512 x shapeCasts_S256x512_S2x128x512 (ix3 b t d) = x (ix2 (⟨128 * b.val + t.val, by omega⟩ : Fin 256) d) :=
  shapeCast_apply x shapeCasts_S256x512_S2x128x512 (ix3 b t d) _ (by
    rw [Shape.rowMajor_val_three, Shape.rowMajor_val_two]
    show (128 * b.val + t.val) * 512 + d.val = (b.val * 128 + t.val) * 512 + d.val
    omega)

/-- The left operand's row coordinate is the result's. -/
theorem lhs_outp_0 (i : S256x512.Idx) (q : dot_S256x1536_S1536x512_S256x512_1_0_0_1_n_n.contr.Idx) :
    (dot_S256x1536_S1536x512_S256x512_1_0_0_1_n_n.lhsIdx i q 0).val = (i 0).val := by
  unfold DotDims.lhsIdx
  rw [dif_neg (show ¬(0 : Fin S256x1536.rank) ∈ dot_S256x1536_S1536x512_S256x512_1_0_0_1_n_n.lhsBatch by decide), dif_pos (show (0 : Fin S256x1536.rank) ∈ dot_S256x1536_S1536x512_S256x512_1_0_0_1_n_n.lhsNonContracting by decide)]
  rfl

/-- The left operand's column coordinate is the contracted position. -/
theorem lhs_outp_1 (i : S256x512.Idx) (q : dot_S256x1536_S1536x512_S256x512_1_0_0_1_n_n.contr.Idx) :
    (dot_S256x1536_S1536x512_S256x512_1_0_0_1_n_n.lhsIdx i q 1).val = (q ⟨0, by decide⟩).val :=
  dot_S256x1536_S1536x512_S256x512_1_0_0_1_n_n.lhsIdx_val_of_single rfl i q

/-- The right operand's row coordinate is the contracted position. -/
theorem rhs_outp_0 (i : S256x512.Idx) (q : dot_S256x1536_S1536x512_S256x512_1_0_0_1_n_n.contr.Idx) :
    (dot_S256x1536_S1536x512_S256x512_1_0_0_1_n_n.rhsIdx i q 0).val = (q ⟨0, by decide⟩).val :=
  dot_S256x1536_S1536x512_S256x512_1_0_0_1_n_n.rhsIdx_val_of_single rfl i q

/-- The right operand's column coordinate is the result's. -/
theorem rhs_outp_1 (i : S256x512.Idx) (q : dot_S256x1536_S1536x512_S256x512_1_0_0_1_n_n.contr.Idx) :
    (dot_S256x1536_S1536x512_S256x512_1_0_0_1_n_n.rhsIdx i q 1).val = (i 1).val := by
  unfold DotDims.rhsIdx
  rw [dif_neg (show ¬(1 : Fin S1536x512.rank) ∈ dot_S256x1536_S1536x512_S256x512_1_0_0_1_n_n.rhsBatch by decide), dif_pos (show (1 : Fin S1536x512.rank) ∈ dot_S256x1536_S1536x512_S256x512_1_0_0_1_n_n.rhsNonContracting by decide)]
  rfl

/-- A plain 256 × 1536 by 1536 × 512 product into zero, at (r, d): the sum over c of the left at (r, c) times the right at (c, d). -/
theorem outp_matmul_apply (L : FVec Ideal S256x1536 .bf16) (R : FVec Ideal S1536x512 .bf16) (r : Fin 256) (d : Fin 512) :
    matmul dot_S256x1536_S1536x512_S256x512_1_0_0_1_n_n none L R (constant S256x512 .f32 0x00000000#32) (ix2 r d)
      = (∑ c : Fin 1536, L (ix2 r c) * R (ix2 c d) : EReal) := by
  refine (Ideal.matmul_constant_zero_apply dot_S256x1536_S1536x512_S256x512_1_0_0_1_n_n none L R (ix2 r d)).trans ?_
  rw [← Equiv.sum_comp (contrEquiv1 dot_S256x1536_S1536x512_S256x512_1_0_0_1_n_n 1536 rfl rfl).symm]
  refine Finset.sum_congr rfl fun k _ => ?_
  have hk := contrEquiv1_symm_val dot_S256x1536_S1536x512_S256x512_1_0_0_1_n_n 1536 rfl rfl k
  have el : dot_S256x1536_S1536x512_S256x512_1_0_0_1_n_n.lhsIdx (ix2 r d) ((contrEquiv1 dot_S256x1536_S1536x512_S256x512_1_0_0_1_n_n 1536 rfl rfl).symm k) = ix2 r k := funext fun a => Fin.ext (by
    match a with
    | ⟨0, _⟩ => exact lhs_outp_0 _ _
    | ⟨1, _⟩ => exact (lhs_outp_1 _ _).trans hk)
  have er : dot_S256x1536_S1536x512_S256x512_1_0_0_1_n_n.rhsIdx (ix2 r d) ((contrEquiv1 dot_S256x1536_S1536x512_S256x512_1_0_0_1_n_n 1536 rfl rfl).symm k) = ix2 k d := funext fun a => Fin.ext (by
    match a with
    | ⟨0, _⟩ => exact (rhs_outp_0 _ _).trans hk
    | ⟨1, _⟩ => exact rhs_outp_1 _ _)
  rw [el, er]

/-- The output at (b, t, d): tanh of the joined row (context (b, t, ·) then decoder (b, t, ·)) against column d of the output weight. -/
theorem outp_apply (C : FVec Ideal S2x128x1024 .f32) (v0 : FVec Ideal S2x128x512 .f32) (v7 : FVec Ideal S1536x512 .bf16) (b : Fin 2) (t : Fin 128) (d : Fin 512) :
    outp C v0 v7 (ix3 b t d) = Ideal.tanh (∑ c : Fin 1536, catRow (fun e => C (ix3 b t e)) (fun d' => v0 (ix3 b t d')) c * v7 (ix2 c d)) := by
  unfold outp
  refine (unflatten_apply _ b t d).trans ?_
  show Ideal.tanh _ = Ideal.tanh _
  refine congrArg Ideal.tanh ?_
  refine (outp_matmul_apply _ _ _ d).trans ?_
  refine Finset.sum_congr rfl fun c _ => ?_
  rw [shapeCast_self, truncf_apply]
  refine congrArg (· * v7 (ix2 c d)) ?_
  refine (flatten_apply _ b t c).trans ?_
  exact joined_apply C v0 b t c

end Cert.KernelIdeal.Stages

end
-- ==== Proof.RefStages.lean ====
/-
  The reference program read at an index, stage by stage, on the extended reals. Four of its values are
  written out coordinate by coordinate. The projection of the encoder states at (B, s, d) is the contraction
  of the encoder row (B, s) with column d of the attention weight over the 1024 encoder features, plus the
  bias at d. The masked energy at (B, t, s) is the contraction of the decoder row (B, t) with the projected
  row (B, s) over the 512 features, the mask at (B, s) multiplying each projected entry inside the sum, plus
  the word of -1.0e10 times (1 - mask). The context at (B, t, e) is the contraction of the attention weights
  of row (B, t) with the encoder states over the 512 source positions. The output at (B, t, d) is tanh of the
  contraction, over 1536 positions, of the joined row (1024 context entries, then 512 decoder entries) with
  column d of the output weight. Each reading is the chain of the per-operation readings, after the composed
  index functions are identified with indices built from coordinates.
-/
import proofs.«418906_j51041391345689_3_alg».proof.Proof.Spec
import proofs.«418906_j51041391345689_3_alg».proof.Proof.RefRead
import Idealize.ShloMosaic.Lib.ValueIdx
import Idealize.ShloMosaic.Lib.Pipeline.Value
import Idealize.ShloMosaic.Lib.ValueLayout
import Idealize.ShloMosaic.PureOps.Ideal.Laws
noncomputable section
namespace Cert.ReferenceIdeal.RefStages
open Cert.ReferenceIdeal Cert.ReferenceIdeal.ReadP Idealize.ShloMosaic Idealize.ShloMosaic.ValueIdx Cert.Spec

variable (x0 : FVec Ideal S64x128x512 .f32) (x1 : FVec Ideal S64x512x1024 .f32) (x2 : IVec S64x512 32)
  (x3 : FVec Ideal S1024x512 .f32) (x4 : FVec Ideal S512 .f32) (x5 : FVec Ideal S1536x512 .f32)

/-- The reference's projection (before the mask) at (B, s, d). -/
theorem rproj_apply (B : Fin 64) (s d : Fin 512) :
    val_main_v4 (F := Ideal) x1 x3 x4 (ix3 B s d) = ((∑ e : Fin 1024, x1 (ix3 B s e) * x3 (ix2 e d)) + x4 (ix1 d) : EReal) := by
  rw [val_main_v4_apply, val_main_v1_apply, val_main_v3_apply, val_main_v2_apply]
  -- the left operand is read at (B, s, k), the right at (k, d), the bias at d
  have el : ∀ k : Fin 1024, lidx_main_v1 (ix3 B s d) k = ix3 B s k := fun k => funext fun a => Fin.ext (by
    match a with | ⟨0, _⟩ => rfl | ⟨1, _⟩ => rfl | ⟨2, _⟩ => rfl)
  have er : ∀ k : Fin 1024, ridx_main_v1 (ix3 B s d) k = ix2 k d := fun k => funext fun a => Fin.ext (by
    match a with | ⟨0, _⟩ => rfl | ⟨1, _⟩ => rfl)
  have eb : idx_main_v2 (idx_main_v3 (ix3 B s d)) = ix1 d := funext fun a => Fin.ext (by
    match a with | ⟨0, _⟩ => rfl)
  simp only [el, er, eb]
  rfl

/-- The reference's masked energy at (B, t, s): the mask multiplies each projected entry INSIDE the sum. -/
theorem renergy_apply (B : Fin 64) (t : Fin 128) (s : Fin 512) :
    val_main_v15 (F := Ideal) x0 x1 x2 x3 x4 (ix3 B t s)
      = ((∑ d : Fin 512, x0 (ix3 B t d) * (val_main_v4 (F := Ideal) x1 x3 x4 (ix3 B s d) * FloatOps.sitofp (F := Ideal) .f32 (x2 (ix2 B s))))
          + negBig * (one - FloatOps.sitofp (F := Ideal) .f32 (x2 (ix2 B s))) : EReal) := by
  rw [val_main_v15_apply, val_main_v8_apply, val_main_v14_apply, val_main_v13_apply, val_main_v12_apply,
    val_main_cst_0_apply, val_main_v11_apply, val_main_v10_apply, val_main_v9_apply, val_main_cst_apply,
    val_main_v0_apply]
  -- the additive mask term is read at (B, s)
  have em : idx_main_v11 (idx_main_v14 (ix3 B t s)) = ix2 B s := funext fun a => Fin.ext (by
    match a with | ⟨0, _⟩ => rfl | ⟨1, _⟩ => rfl)
  rw [em]
  simp only [Ideal.addf_def, Ideal.mulf_def, Ideal.subf_def, Ideal.ofBits_def]
  refine congrArg₂ (· + ·) (Finset.sum_congr rfl fun k _ => ?_) rfl
  -- the decoder row is read at (B, t, k), the masked projection at (B, s, k), its mask at (B, s)
  have el : lidx_main_v8 (ix3 B t s) k = ix3 B t k := funext fun a => Fin.ext (by
    match a with | ⟨0, _⟩ => rfl | ⟨1, _⟩ => rfl | ⟨2, _⟩ => rfl)
  have er : ridx_main_v8 (ix3 B t s) k = ix3 B s k := funext fun a => Fin.ext (by
    match a with | ⟨0, _⟩ => rfl | ⟨1, _⟩ => rfl | ⟨2, _⟩ => rfl)
  rw [el, er, val_main_v7_apply, val_main_v6_apply, val_main_v5_apply, val_main_v0_apply]
  have ek : idx_main_v5 (idx_main_v6 (ix3 B s k)) = ix2 B s := funext fun a => Fin.ext (by
    match a with | ⟨0, _⟩ => rfl | ⟨1, _⟩ => rfl)
  rw [ek]
  rfl

/-- The reference's context at (B, t, e). -/
theorem rcontext_apply (B : Fin 64) (t : Fin 128) (e : Fin 1024) :
    val_main_v27 (F := Ideal) x0 x1 x2 x3 x4 (ix3 B t e) = (∑ s : Fin 512, val_main_v26 (F := Ideal) x0 x1 x2 x3 x4 (ix3 B t s) * x1 (ix3 B s e) : EReal) := by
  rw [val_main_v27_apply]
  refine Finset.sum_congr rfl fun k _ => ?_
  -- the attention weights are read at (B, t, k), the encoder states at (B, k, e)
  have el : lidx_main_v27 (ix3 B t e) k = ix3 B t k := funext fun a => Fin.ext (by
    match a with | ⟨0, _⟩ => rfl | ⟨1, _⟩ => rfl | ⟨2, _⟩ => rfl)
  have er : ridx_main_v27 (ix3 B t e) k = ix3 B k e := funext fun a => Fin.ext (by
    match a with | ⟨0, _⟩ => rfl | ⟨1, _⟩ => rfl | ⟨2, _⟩ => rfl)
  rw [el, er]

/-- The joined row at (B, t, c): the context entry c below 1024, the decoder entry c - 1024 from there on. -/
theorem rcat_apply (B : Fin 64) (t : Fin 128) (c : Fin 1536) :
    val_main_v28 (F := Ideal) x0 x1 x2 x3 x4 (ix3 B t c)
      = catRow (fun e => val_main_v27 (F := Ideal) x0 x1 x2 x3 x4 (ix3 B t e)) (fun d' => x0 (ix3 B t d')) c := by
  unfold val_main_v28 catRow
  generalize val_main_v27 (F := Ideal) x0 x1 x2 x3 x4 = y
  by_cases h : c.val < 1024
  · rw [dif_pos h]
    exact concatenate_pair_apply_left (t := S64x128x1536) (s₁ := S64x128x1024) (s₂ := S64x128x512) (2 : Fin 3) y x0 _
      (ix3 B t c) rfl (ix3 B t (⟨c.val, h⟩ : Fin 1024)) (by
        intro b
        match b with
        | ⟨0, _⟩ => rfl
        | ⟨1, _⟩ => rfl
        | ⟨2, _⟩ => rfl)
  · rw [dif_neg h]
    exact concatenate_pair_apply_right (t := S64x128x1536) (s₁ := S64x128x1024) (s₂ := S64x128x512) (2 : Fin 3) y x0 _
      (ix3 B t c) rfl rfl (ix3 B t (⟨c.val - 1024, by have := c.isLt; omega⟩ : Fin 512)) (by
        intro b hb
        match b with
        | ⟨0, _⟩ => rfl
        | ⟨1, _⟩ => rfl
        | ⟨2, _⟩ => exact absurd rfl hb) (by
        show c.val - 1024 + 1024 = c.val; omega)

/-- The reference's output at (B, t, d). -/
theorem rout_apply (B : Fin 64) (t : Fin 128) (d : Fin 512) :
    val_main_v30 (F := Ideal) x0 x1 x2 x3 x4 x5 (ix3 B t d)
      = Ideal.tanh (∑ c : Fin 1536, catRow (fun e => val_main_v27 (F := Ideal) x0 x1 x2 x3 x4 (ix3 B t e)) (fun d' => x0 (ix3 B t d')) c * x5 (ix2 c d)) := by
  rw [val_main_v30_apply, Ideal.hostUnary_tanh_def, val_main_v29_apply]
  refine congrArg Ideal.tanh (Finset.sum_congr rfl fun k _ => ?_)
  -- the joined row is read at (B, t, k), the output weight at (k, d)
  have el : lidx_main_v29 (ix3 B t d) k = ix3 B t k := funext fun a => Fin.ext (by
    match a with | ⟨0, _⟩ => rfl | ⟨1, _⟩ => rfl | ⟨2, _⟩ => rfl)
  have er : ridx_main_v29 (ix3 B t d) k = ix2 k d := funext fun a => Fin.ext (by
    match a with | ⟨0, _⟩ => rfl | ⟨1, _⟩ => rfl)
  rw [el, er, rcat_apply]

end Cert.ReferenceIdeal.RefStages

end
-- ==== Proof.SoftmaxK.lean ====
/-
  The kernel's softmax along the source axis, read at an index. A row's maximum and a row's sum are lane reductions
  of the [2, 128, 512] block, given a trailing unit axis and spread back along the 512 lanes; the result at (b, t, s)
  is the row function `softmaxRow` of row (b, t) of the energies: the shifted exponential at `s` over the sum of the
  row's shifted exponentials.
-/
import proofs.«418906_j51041391345689_3_alg».proof.Proof.Stages
import proofs.«418906_j51041391345689_3_alg».proof.Proof.Spec
import Idealize.ShloMosaic.Lib.ValueIdx
import Idealize.ShloMosaic.Lib.Pipeline.Value
import Idealize.ShloMosaic.PureOps.Ideal.Laws

noncomputable section

namespace Cert.KernelIdeal.Stages

open Cert.KernelIdeal Cert.KernelIdeal.Gen Idealize.ShloMosaic Idealize.ShloMosaic.ValueIdx Cert.Spec

/-- A [2, 128] vector given a trailing unit axis and spread along 512 lanes reads, at (b, t, s), the vector at (b, t). -/
theorem keepdims_apply (r : FVec Ideal S2x128 .f32) (b : Fin 2) (t : Fin 128) (s : Fin 512) :
    broadcastTo S2x128x512 (shapeCast S2x128x1 r shapeCasts_S2x128_S2x128x1) broadcasts_S2x128x1_S2x128x512 (ix3 b t s) = r (ix2 b t) := by
  refine (broadcastTo_apply _ _ (ix3 b t s) (ix3 b t (0 : Fin 1)) (fun a => match a with
    | ⟨0, _⟩ => by show b.val = (if (2 : Nat) = 1 then 0 else b.val); rw [if_neg (by decide)]
    | ⟨1, _⟩ => by show t.val = (if (128 : Nat) = 1 then 0 else t.val); rw [if_neg (by decide)]
    | ⟨2, _⟩ => by show 0 = (if (1 : Nat) = 1 then 0 else s.val); rw [if_pos rfl])).trans ?_
  exact shapeCast_apply _ _ (ix3 b t (0 : Fin 1)) (ix2 b t) (by
    rw [Shape.rowMajor_val_two, Shape.rowMajor_val_three]
    show b.val * 128 + t.val = (b.val * 128 + t.val) * 1 + 0
    omega)

/-- The lane maximum of a block at (b, t) is the maximum of row (b, t). -/
theorem rowMax_read (E : FVec Ideal S2x128x512 .f32) (b : Fin 2) (t : Fin 128) :
    multiReduction .maximumf [2] S2x128 E 0xFF800000#32 reduces_S2x128x512_S2x128 (.inl rfl) rfl (ix2 b t)
      = rowMax (fun s' => E (ix3 b t s')) := by
  refine (Ideal.multiReduction_maximumf_single E 0xFF800000#32 reduces_S2x128x512_S2x128 (.inl rfl) rfl (ix2 b t)).trans ?_
  exact Finset.fold_congr (fun k _ => congrArg E (funext fun a => Fin.ext (by
    match a with | ⟨0, _⟩ => rfl | ⟨1, _⟩ => rfl | ⟨2, _⟩ => rfl)))

/-- The lane sum of a block at (b, t) is the sum of row (b, t). -/
theorem rowSum_read (X : FVec Ideal S2x128x512 .f32) (b : Fin 2) (t : Fin 128) :
    multiReduction .add [2] S2x128 X 0x00000000#32 reduces_S2x128x512_S2x128 (.inl rfl) rfl (ix2 b t)
      = ∑ s' : Fin 512, X (ix3 b t s') := by
  refine (Ideal.multiReduction_add_single X 0x00000000#32 reduces_S2x128x512_S2x128 (.inl rfl) rfl (ix2 b t)).trans ?_
  exact Finset.sum_congr rfl (fun k _ => congrArg X (funext fun a => Fin.ext (by
    match a with | ⟨0, _⟩ => rfl | ⟨1, _⟩ => rfl | ⟨2, _⟩ => rfl)))

/-- The exponentials of the energies shifted by their row's maximum. -/
def shifted (E : FVec Ideal S2x128x512 .f32) : FVec Ideal S2x128x512 .f32 :=
  exp (subf E (broadcastTo S2x128x512 (shapeCast S2x128x1 (multiReduction .maximumf [2] S2x128 E 0xFF800000#32 reduces_S2x128x512_S2x128 (.inl rfl) rfl) shapeCasts_S2x128_S2x128x1) broadcasts_S2x128x1_S2x128x512))

/-- The softmax stage is the shifted exponentials over their row sums spread back. -/
theorem softmax_eq (E : FVec Ideal S2x128x512 .f32) :
    softmax E = divf (shifted E) (broadcastTo S2x128x512 (shapeCast S2x128x1 (multiReduction .add [2] S2x128 (shifted E) 0x00000000#32 reduces_S2x128x512_S2x128 (.inl rfl) rfl) shapeCasts_S2x128_S2x128x1) broadcasts_S2x128x1_S2x128x512) := rfl

theorem shifted_apply (E : FVec Ideal S2x128x512 .f32) (b : Fin 2) (t : Fin 128) (s0 : Fin 512) :
    shifted E (ix3 b t s0) = Ideal.exp (E (ix3 b t s0) - rowMax (fun s' => E (ix3 b t s'))) :=
  congrArg (fun z => Ideal.exp (E (ix3 b t s0) - z))
    ((keepdims_apply (multiReduction .maximumf [2] S2x128 E 0xFF800000#32 reduces_S2x128x512_S2x128 (.inl rfl) rfl) b t s0).trans (rowMax_read E b t))

/-- The kernel's softmax at (b, t, s) is the softmax of row (b, t) at s. -/
theorem softmax_apply (E : FVec Ideal S2x128x512 .f32) (b : Fin 2) (t : Fin 128) (s : Fin 512) :
    softmax E (ix3 b t s) = softmaxRow (fun s' => E (ix3 b t s')) s := by
  have hd := keepdims_apply (multiReduction .add [2] S2x128 (shifted E) 0x00000000#32 reduces_S2x128x512_S2x128 (.inl rfl) rfl) b t s
  have hs : multiReduction .add [2] S2x128 (shifted E) 0x00000000#32 reduces_S2x128x512_S2x128 (.inl rfl) rfl (ix2 b t)
      = ∑ s' : Fin 512, Ideal.exp (E (ix3 b t s') - rowMax (fun s'' => E (ix3 b t s''))) :=
    (rowSum_read (shifted E) b t).trans (Finset.sum_congr rfl fun s' _ => shifted_apply E b t s')
  rw [softmax_eq]
  exact congrArg₂ Ideal.div (shifted_apply E b t s) (hd.trans hs)

end Cert.KernelIdeal.Stages

end
-- ==== Proof.SoftmaxR.lean ====
/-
  The reference's softmax along the source axis, read at an index. Its row maximum is a host reduction from −∞ with
  one more `max` against −∞ that changes nothing; its row sum is a host reduction from 0; both are spread back along
  the source axis. The result at (B, t, s) is the row function `softmaxRow` of row (B, t) of its masked energies.
-/
import proofs.«418906_j51041391345689_3_alg».proof.Proof.Spec
import proofs.«418906_j51041391345689_3_alg».proof.Proof.RefRead
import Idealize.ShloMosaic.Lib.ValueIdx
import Idealize.ShloMosaic.Lib.Pipeline.Value
import Idealize.ShloMosaic.PureOps.Ideal.Laws

noncomputable section

namespace Cert.ReferenceIdeal.RefStages

open Cert.ReferenceIdeal Cert.ReferenceIdeal.Gen Cert.ReferenceIdeal.ReadP Idealize.ShloMosaic Idealize.ShloMosaic.ValueIdx Cert.Spec

variable (x0 : (⟨S64x128x512, .f32⟩ : BufTy).Contents (Elt Ideal)) (x1 : (⟨S64x512x1024, .f32⟩ : BufTy).Contents (Elt Ideal)) (x2 : (⟨S64x512, .i32⟩ : BufTy).Contents (Elt Ideal)) (x3 : (⟨S1024x512, .f32⟩ : BufTy).Contents (Elt Ideal)) (x4 : (⟨S512, .f32⟩ : BufTy).Contents (Elt Ideal))

/-- The reference's row maximum at (B, t): the host reduction is the fold of `max` from −∞ over the row, and the
    further `max` against −∞ leaves it. -/
theorem rmax_read (B : Fin 64) (t : Fin 128) :
    val_main_v18 (F := Ideal) x0 x1 x2 x3 x4 (ix2 B t) = rowMax (fun s' => val_main_v15 (F := Ideal) x0 x1 x2 x3 x4 (ix3 B t s')) := by
  have h16 : val_main_v16 (F := Ideal) x0 x1 x2 x3 x4 (ix2 B t) = rowMax (fun s' => val_main_v15 (F := Ideal) x0 x1 x2 x3 x4 (ix3 B t s')) := by
    unfold val_main_v16
    refine (Host.reduce_eq_fold_single (FloatOps.maximumf (F := Ideal) (φ := .f32)) (val_main_v15 (F := Ideal) x0 x1 x2 x3 x4) (val_main_cst_1 (F := Ideal)) reducesTo_S64x128x512_S64x128_d2 (by decide) h_S_ (ix2 B t)).trans ?_
    exact Finset.fold_congr (fun k _ => congrArg (val_main_v15 (F := Ideal) x0 x1 x2 x3 x4) (funext fun a => Fin.ext (by
      match a with | ⟨0, _⟩ => rfl | ⟨1, _⟩ => rfl | ⟨2, _⟩ => rfl)))
  rw [val_main_v18_apply, h16]
  exact max_negInf_rowMax _

/-- The reference's shifted exponential at (B, t, s0). -/
theorem rshift_read (B : Fin 64) (t : Fin 128) (s0 : Fin 512) :
    val_main_v22 (F := Ideal) x0 x1 x2 x3 x4 (ix3 B t s0)
      = Ideal.exp (val_main_v15 (F := Ideal) x0 x1 x2 x3 x4 (ix3 B t s0) - rowMax (fun s' => val_main_v15 (F := Ideal) x0 x1 x2 x3 x4 (ix3 B t s'))) := by
  have hi : idx_main_v19 (idx_main_v20 (ix3 B t s0)) = ix2 B t :=
    funext fun a => Fin.ext (by match a with | ⟨0, _⟩ => rfl | ⟨1, _⟩ => rfl)
  rw [val_main_v22_apply, val_main_v21_apply, val_main_v20_apply, val_main_v19_apply, hi, rmax_read]
  rfl

/-- The reference's softmax at (B, t, s) is the softmax of row (B, t) of its masked energies at s. -/
theorem rsoftmax_apply (B : Fin 64) (t : Fin 128) (s : Fin 512) :
    val_main_v26 (F := Ideal) x0 x1 x2 x3 x4 (ix3 B t s)
      = softmaxRow (fun s' => val_main_v15 (F := Ideal) x0 x1 x2 x3 x4 (ix3 B t s')) s := by
  have hi : idx_main_v24 (idx_main_v25 (ix3 B t s)) = ix2 B t :=
    funext fun a => Fin.ext (by match a with | ⟨0, _⟩ => rfl | ⟨1, _⟩ => rfl)
  have hk : ∀ k : Fin 512, idx_main_v23 (ix2 B t) k = ix3 B t k := fun k =>
    funext fun a => Fin.ext (by match a with | ⟨0, _⟩ => rfl | ⟨1, _⟩ => rfl | ⟨2, _⟩ => rfl)
  have hsum : val_main_v23 (F := Ideal) x0 x1 x2 x3 x4 (ix2 B t)
      = ∑ s' : Fin 512, Ideal.exp (val_main_v15 (F := Ideal) x0 x1 x2 x3 x4 (ix3 B t s') - rowMax (fun s'' => val_main_v15 (F := Ideal) x0 x1 x2 x3 x4 (ix3 B t s''))) := by
    rw [val_main_v23_apply, val_main_cst_3_apply]
    show Ideal.ofBits .f32 0x00000000#32 + _ = _
    rw [Ideal.ofBits_zero_f32, zero_add]
    exact Finset.sum_congr rfl fun k _ =>
      (congrArg (val_main_v22 (F := Ideal) x0 x1 x2 x3 x4) (hk k)).trans (rshift_read x0 x1 x2 x3 x4 B t k)
  rw [val_main_v26_apply, val_main_v25_apply, val_main_v24_apply, hi, hsum, rshift_read]
  rfl

end Cert.ReferenceIdeal.RefStages

end
-- ==== Proof.Law.lean ====
/-
  The one algebraic law that joins the two programs. The kernel multiplies a row's dot product by the mask
  afterwards, `(Σ_d a_d · p_d) · M`; the reference multiplies each projected entry by the mask first,
  `Σ_d a_d · (p_d · M)`. On real numbers these are equal (distributivity, then associativity term by term);
  on the extended reals distributivity fails at the infinities, so the law is stated for entries that are real numbers.
-/
import proofs.«418906_j51041391345689_3_alg».proof.Proof.Finite

noncomputable section

namespace Cert.Finite

/-- The inclusion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A factor moves across a finite sum of products of real numbers: `(Σ a·p)·M = Σ a·(p·M)`. -/
theorem sum_mul_mask {ι : Type} [Fintype ι] (a p : ι → EReal) (M : EReal)
    (ha : ∀ d, IsFin (a d)) (hp : ∀ d, IsFin (p d)) (hM : IsFin M) :
    (∑ d, a d * p d) * M = ∑ d, a d * (p d * M) := by
  have ha₂ : ∀ d, ∃ r : ℝ, a d = (r : EReal) := ha
  have hp₂ : ∀ d, ∃ r : ℝ, p d = (r : EReal) := hp
  choose a' ha' using ha₂
  choose p' hp' using hp₂
  obtain ⟨M', rfl⟩ := hM
  have hl : (∑ d, a d * p d) * (M' : EReal) = (((∑ d, a' d * p' d) * M' : ℝ) : EReal) := by
    rw [EReal.coe_mul, coe_sum]
    exact congrArg (· * (M' : EReal)) (Finset.sum_congr rfl fun d _ => by rw [ha' d, hp' d, EReal.coe_mul])
  have hr : (∑ d, a d * (p d * (M' : EReal))) = ((∑ d, a' d * (p' d * M') : ℝ) : EReal) := by
    rw [coe_sum]
    exact Finset.sum_congr rfl fun d _ => by rw [ha' d, hp' d, EReal.coe_mul, EReal.coe_mul]
  rw [hl, hr]
  exact congrArg _ (by rw [Finset.sum_mul]; exact Finset.sum_congr rfl fun d _ => by ring)

end Cert.Finite

end
-- ==== Proof.Bridge.lean ====
/-
  The bridge. A grid point `g` works on batches `2g` and `2g + 1`: its decoder, encoder and mask blocks are those two
  batches of the arrays, and the two weights and the bias are whole. Under that reading each stage of the kernel's body,
  at (b, t, ·) of the block, is the reference's stage at (2g + b, t, ·) of the arrays: the projection and the context by
  renaming the sums' terms, the softmax because it is one row function of equal rows, the output because the joined rows
  are equal, and the energies by the one law that needs the inputs to be real numbers — the mask factor moves from
  outside the sum over the decoder width to each of its terms.
-/
import proofs.«418906_j51041391345689_3_alg».proof.Proof.StageProjEnergy
import proofs.«418906_j51041391345689_3_alg».proof.Proof.StageContextOut
import proofs.«418906_j51041391345689_3_alg».proof.Proof.RefStages
import proofs.«418906_j51041391345689_3_alg».proof.Proof.SoftmaxK
import proofs.«418906_j51041391345689_3_alg».proof.Proof.SoftmaxR
import proofs.«418906_j51041391345689_3_alg».proof.Proof.Law

noncomputable section

namespace Cert.Bridge

open Idealize.ShloMosaic Idealize.ShloMosaic.ValueIdx Cert.Spec Cert.Finite
open Cert.KernelIdeal.Stages Cert.KernelIdeal.Gen Cert.ReferenceIdeal.RefStages Cert.ReferenceIdeal.ReadP

/-- Batch `b` of grid point `g`'s pair is batch `2g + b` of the arrays. -/
def bat (g : Fin 32) (b : Fin 2) : Fin 64 := ⟨2 * g.val + b.val, by have := g.isLt; have := b.isLt; omega⟩

variable (x0 : (⟨Cert.ReferenceIdeal.S64x128x512, .f32⟩ : BufTy).Contents (Elt Ideal))
  (x1 : (⟨Cert.ReferenceIdeal.S64x512x1024, .f32⟩ : BufTy).Contents (Elt Ideal))
  (x2 : (⟨Cert.ReferenceIdeal.S64x512, .i32⟩ : BufTy).Contents (Elt Ideal))
  (x3 : (⟨Cert.ReferenceIdeal.S1024x512, .f32⟩ : BufTy).Contents (Elt Ideal))
  (x4 : (⟨Cert.ReferenceIdeal.S512, .f32⟩ : BufTy).Contents (Elt Ideal))
  (x5 : (⟨Cert.ReferenceIdeal.S1536x512, .f32⟩ : BufTy).Contents (Elt Ideal))
  (v0 : FVec Ideal Cert.KernelIdeal.S2x128x512 .f32) (v1 : FVec Ideal Cert.KernelIdeal.S2x512x1024 .f32) (v2 : FVec Ideal Cert.KernelIdeal.S2x128x512 .f32)
  (v4 : FVec Ideal Cert.KernelIdeal.S1024x512 .bf16) (v6 : FVec Ideal Cert.KernelIdeal.S512 .f32) (v7 : FVec Ideal Cert.KernelIdeal.S1536x512 .bf16)
  (g : Fin 32)

/-- The blocks at point `g` are the arrays' batches `2g`, `2g + 1`; the mask block repeats the converted mask row along
    the target axis; the weights and the bias are the whole arrays. -/
structure Reads : Prop where
  h0 : ∀ (b : Fin 2) (t : Fin 128) (d : Fin 512), v0 (ix3 b t d) = x0 (ix3 (bat g b) t d)
  h1 : ∀ (b : Fin 2) (s : Fin 512) (e : Fin 1024), v1 (ix3 b s e) = x1 (ix3 (bat g b) s e)
  h2 : ∀ (b : Fin 2) (t : Fin 128) (s : Fin 512), v2 (ix3 b t s) = FloatOps.sitofp (F := Ideal) .f32 (x2 (ix2 (bat g b) s))
  h4 : ∀ (e : Fin 1024) (d : Fin 512), v4 (ix2 e d) = x3 (ix2 e d)
  h6 : ∀ d : Fin 512, v6 (ix1 d) = x4 (ix1 d)
  h7 : ∀ (c : Fin 1536) (d : Fin 512), v7 (ix2 c d) = x5 (ix2 c d)

/-- The four float inputs the energies depend on hold real numbers. -/
structure RealInputs : Prop where
  f0 : ∀ i, IsFin (x0 i)
  f1 : ∀ i, IsFin (x1 i)
  f3 : ∀ i, IsFin (x3 i)
  f4 : ∀ i, IsFin (x4 i)

variable {x0 x1 x2 x3 x4 x5 v0 v1 v2 v4 v6 v7 g}

/-- The projection of the block is the reference's projection of the batch. -/
theorem proj_bridge (R : Reads x0 x1 x2 x3 x4 x5 v0 v1 v2 v4 v6 v7 g) (b : Fin 2) (s d : Fin 512) :
    proj v1 v4 v6 (ix3 b s d) = val_main_v4 (F := Ideal) x1 x3 x4 (ix3 (bat g b) s d) := by
  rw [proj_apply, rproj_apply, R.h6]
  exact congrArg (· + x4 (ix1 d)) (Finset.sum_congr rfl fun e _ => by rw [R.h1, R.h4])

/-- The reference's projection of real inputs is a real number. -/
theorem isFin_rproj (Fi : RealInputs x0 x1 x3 x4) (B : Fin 64) (s d : Fin 512) :
    IsFin (val_main_v4 (F := Ideal) x1 x3 x4 (ix3 B s d)) := by
  rw [rproj_apply]
  exact (IsFin.sum _ _ fun e => (Fi.f1 _).mul (Fi.f3 _)).add (Fi.f4 _)

/-- The masked energies agree: the kernel's `(Σ dec · proj) · mask` is the reference's `Σ dec · (proj · mask)` on real numbers. -/
theorem energy_bridge (R : Reads x0 x1 x2 x3 x4 x5 v0 v1 v2 v4 v6 v7 g) (Fi : RealInputs x0 x1 x3 x4) (b : Fin 2) (t : Fin 128) (s : Fin 512) :
    energy v0 v2 (proj v1 v4 v6) (ix3 b t s) = val_main_v15 (F := Ideal) x0 x1 x2 x3 x4 (ix3 (bat g b) t s) := by
  rw [energy_apply, renergy_apply, R.h2]
  have hs : (∑ d : Fin 512, v0 (ix3 b t d) * proj v1 v4 v6 (ix3 b s d))
      = ∑ d : Fin 512, x0 (ix3 (bat g b) t d) * val_main_v4 (F := Ideal) x1 x3 x4 (ix3 (bat g b) s d) :=
    Finset.sum_congr rfl fun d _ => by rw [R.h0, proj_bridge R]
  rw [hs]
  exact congrArg (· + negBig * (one - FloatOps.sitofp (F := Ideal) .f32 (x2 (ix2 (bat g b) s))))
    (sum_mul_mask (fun d : Fin 512 => x0 (ix3 (bat g b) t d)) (fun d : Fin 512 => val_main_v4 (F := Ideal) x1 x3 x4 (ix3 (bat g b) s d))
      (FloatOps.sitofp (F := Ideal) .f32 (x2 (ix2 (bat g b) s))) (fun d => Fi.f0 _) (fun d => isFin_rproj Fi _ _ _) (isFin_sitofp _))

/-- The attention weights agree: one row function of equal rows. -/
theorem softmax_bridge (R : Reads x0 x1 x2 x3 x4 x5 v0 v1 v2 v4 v6 v7 g) (Fi : RealInputs x0 x1 x3 x4) (b : Fin 2) (t : Fin 128) (s : Fin 512) :
    softmax (energy v0 v2 (proj v1 v4 v6)) (ix3 b t s) = val_main_v26 (F := Ideal) x0 x1 x2 x3 x4 (ix3 (bat g b) t s) := by
  rw [softmax_apply, rsoftmax_apply]
  exact congrArg (fun E => softmaxRow E s) (funext fun s' => energy_bridge R Fi b t s')

/-- The contexts agree. -/
theorem context_bridge (R : Reads x0 x1 x2 x3 x4 x5 v0 v1 v2 v4 v6 v7 g) (Fi : RealInputs x0 x1 x3 x4) (b : Fin 2) (t : Fin 128) (e : Fin 1024) :
    context (softmax (energy v0 v2 (proj v1 v4 v6))) v1 (ix3 b t e) = val_main_v27 (F := Ideal) x0 x1 x2 x3 x4 (ix3 (bat g b) t e) := by
  rw [context_apply, rcontext_apply]
  exact Finset.sum_congr rfl fun s _ => by rw [softmax_bridge R Fi, R.h1]

/-- The outputs agree: equal joined rows against the same weight. -/
theorem out_bridge (R : Reads x0 x1 x2 x3 x4 x5 v0 v1 v2 v4 v6 v7 g) (Fi : RealInputs x0 x1 x3 x4) (b : Fin 2) (t : Fin 128) (d : Fin 512) :
    outp (context (softmax (energy v0 v2 (proj v1 v4 v6))) v1) v0 v7 (ix3 b t d) = val_main_v30 (F := Ideal) x0 x1 x2 x3 x4 x5 (ix3 (bat g b) t d) := by
  rw [outp_apply, rout_apply]
  have hC : (fun e : Fin 1024 => context (softmax (energy v0 v2 (proj v1 v4 v6))) v1 (ix3 b t e))
      = fun e : Fin 1024 => val_main_v27 (F := Ideal) x0 x1 x2 x3 x4 (ix3 (bat g b) t e) := funext fun e => context_bridge R Fi b t e
  have hD : (fun d' : Fin 512 => v0 (ix3 b t d')) = fun d' : Fin 512 => x0 (ix3 (bat g b) t d') := funext fun d' => R.h0 b t d'
  rw [hC, hD]
  exact congrArg Ideal.tanh (Finset.sum_congr rfl fun c _ => by rw [R.h7])

/-! The same three facts over the printed payloads. -/

theorem pay4_bridge (R : Reads x0 x1 x2 x3 x4 x5 v0 v1 v2 v4 v6 v7 g) (Fi : RealInputs x0 x1 x3 x4) (b : Fin 2) (t : Fin 128) (s : Fin 512) :
    k0_pay4 (F := Ideal) v0 v1 v2 v4 v6 (ix3 b t s) = val_main_v15 (F := Ideal) x0 x1 x2 x3 x4 (ix3 (bat g b) t s) :=
  (congrFun (pay4_eq v0 v1 v2 v4 v6) _).trans (energy_bridge R Fi b t s)

theorem pay5_bridge (R : Reads x0 x1 x2 x3 x4 x5 v0 v1 v2 v4 v6 v7 g) (Fi : RealInputs x0 x1 x3 x4) (b : Fin 2) (t : Fin 128) (s : Fin 512) :
    k0_pay5 (F := Ideal) v0 v1 v2 v4 v6 (ix3 b t s) = val_main_v26 (F := Ideal) x0 x1 x2 x3 x4 (ix3 (bat g b) t s) := by
  rw [pay5_eq, pay4_eq]
  exact softmax_bridge R Fi b t s

theorem pay1_bridge (R : Reads x0 x1 x2 x3 x4 x5 v0 v1 v2 v4 v6 v7 g) (Fi : RealInputs x0 x1 x3 x4) (b : Fin 2) (t : Fin 128) (d : Fin 512) :
    k0_pay1 (F := Ideal) (k0_pay2 (F := Ideal) v7) (k0_pay6 (F := Ideal) v0 v1 v2 v4 v6) (ix3 b t d)
      = val_main_v30 (F := Ideal) x0 x1 x2 x3 x4 x5 (ix3 (bat g b) t d) := by
  rw [pay1_eq, pay5_eq, pay4_eq]
  exact out_bridge R Fi b t d

end Cert.Bridge

end
-- ==== Proof.Blocks.lean ====
/-
  From blocks to arrays. The grid has 32 points; point `t` stages batches `2t`, `2t + 1` of the decoder states, the
  encoder states and the mask (already converted to floats and repeated along the target axis by the host), and the
  whole weights (cast by the host, which changes nothing on the extended reals) and bias; it writes back batches
  `2t`, `2t + 1` of the three results. What it writes is, entry by entry, the reference's value at that batch (the
  bridge), so each result array — covered by the 32 blocks — ends holding the reference's result.
-/
import proofs.«418906_j51041391345689_3_alg».proof.Proof.Gen.KernelIdeal.Value
import proofs.«418906_j51041391345689_3_alg».proof.Proof.Bridge
import Idealize.ShloMosaic.Lib.Pipeline.Value
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx Cert.Bridge Cert.Finite
open Idealize.ShloMosaic.Pipeline (Dat)

variable (m : (ℓ : Loc nD τ sig) → Buf (Elt Ideal) ℓ) (ρ : Dev nD → PrngReg)

/-! ## The three results, as the reference computes them from this program's own arguments -/

/-- The output states. -/
def outStates (c : Dev nD) : S64x128x512.Idx → EReal := Cert.ReferenceIdeal.ReadP.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
/-- The attention weights. -/
def attnWeights (c : Dev nD) : S64x128x512.Idx → EReal := Cert.ReferenceIdeal.ReadP.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4))
/-- The masked energies. -/
def maskedEnergies (c : Dev nD) : S64x128x512.Idx → EReal := Cert.ReferenceIdeal.ReadP.val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The four float arguments the energies depend on hold real numbers. -/
abbrev RealArgs (c : Dev nD) : Prop := RealInputs (m ((c : Thread nD τ).loc main_arg0)) (m ((c : Thread nD τ).loc main_arg1)) (m ((c : Thread nD τ).loc main_arg3)) (m ((c : Thread nD τ).loc main_arg4))

/-! ## The grid and the index maps -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- A grid point as a number below 32. -/
def pt (t : Fin cfg0.N) : Fin 32 := ⟨t.val, lt_of_lt_of_eq t.isLt N_0⟩

/-- The batched windows' blocks move along the batch axis with the point and sit at zero on the other axes. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)
theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)
/-- The whole-array windows' blocks sit at zero. -/
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

/-! ## What the host prepared for the region -/

/-- The mask the region reads: the integer mask converted, given a unit target axis, repeated along it. -/
theorem maskArr_eq (c : Dev nD) : (V m c main_v2 : S64x128x512.Idx → EReal)
    = broadcastInDim S64x128x512 ![0, 1, 2] bcast_S64x1x512_S64x128x512_0_1_2 (broadcastInDim S64x1x512 ![0, 2] bcast_S64x512_S64x1x512_0_2 (sitofp (F := Ideal) .f32 (m ((c : Thread nD τ).loc main_arg2)))) := by
  dsimp only [V, hostOps0]; after_results

/-- The attention weight the region reads is the argument (the cast is the identity on the extended reals). -/
theorem wArr_eq (c : Dev nD) : (V m c main_v3 : S1024x512.Idx → EReal) = truncf (F := Ideal) .bf16 (m ((c : Thread nD τ).loc main_arg3)) bitsLt_bf16_f32 := by
  dsimp only [V, hostOps0]; after_results

/-- The output weight the region reads is the argument. -/
theorem woArr_eq (c : Dev nD) : (V m c main_v4 : S1536x512.Idx → EReal) = truncf (F := Ideal) .bf16 (m ((c : Thread nD τ).loc main_arg5)) bitsLt_bf16_f32 := by
  dsimp only [V, hostOps0]; after_results

/-- The mask array at (B, t, s) is the converted mask at (B, s). -/
theorem maskArr_apply (c : Dev nD) (B : Fin 64) (tt : Fin 128) (s : Fin 512) :
    (V m c main_v2 : S64x128x512.Idx → EReal) (ix3 B tt s) = FloatOps.sitofp (F := Ideal) .f32 (m ((c : Thread nD τ).loc main_arg2) (ix2 B s)) := by
  rw [maskArr_eq]
  refine (broadcastInDim_apply _ bcast_S64x1x512_S64x128x512_0_1_2 _ (ix3 B tt s) (ix3 B (0 : Fin 1) s) (fun a => match a with
    | ⟨0, _⟩ => by show B.val = if (64 : Nat) = 1 then 0 else B.val; rw [if_neg (by decide)]
    | ⟨1, _⟩ => by show 0 = if (1 : Nat) = 1 then 0 else tt.val; rw [if_pos rfl]
    | ⟨2, _⟩ => by show s.val = if (512 : Nat) = 1 then 0 else s.val; rw [if_neg (by decide)])).trans ?_
  exact broadcastInDim_apply _ bcast_S64x512_S64x1x512_0_2 _ (ix3 B (0 : Fin 1) s) (ix2 B s) (fun a => match a with
    | ⟨0, _⟩ => by show B.val = if (64 : Nat) = 1 then 0 else B.val; rw [if_neg (by decide)]
    | ⟨1, _⟩ => by show s.val = if (512 : Nat) = 1 then 0 else s.val; rw [if_neg (by decide)])

/-! ## The blocks a point loads -/

abbrev decBlk (c : Dev nD) (t : Fin cfg0.N) : FVec Ideal S2x128x512 .f32 := iblk m c 0 t
abbrev encBlk (c : Dev nD) (t : Fin cfg0.N) : FVec Ideal S2x512x1024 .f32 := iblk m c 1 t
abbrev maskBlk (c : Dev nD) (t : Fin cfg0.N) : FVec Ideal S2x128x512 .f32 := iblk m c 2 t
abbrev wBlk (c : Dev nD) (t : Fin cfg0.N) : FVec Ideal S1024x512 .bf16 := iblk m c 3 t
abbrev biasBlk (c : Dev nD) (t : Fin cfg0.N) : FVec Ideal S512 .f32 := iblk m c 4 t
abbrev woBlk (c : Dev nD) (t : Fin cfg0.N) : FVec Ideal S1536x512 .bf16 := iblk m c 5 t

/-- Point `t`'s blocks are batches `2t`, `2t + 1` of the arguments, the converted mask row, and the whole weights and bias. -/
theorem reads (c : Dev nD) (t : Fin cfg0.N) :
    Reads (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      (decBlk m c t) (encBlk m c t) (maskBlk m c t) (wBlk m c t) (biasBlk m c t) (woBlk m c t) (pt t) where
  h0 := fun b tt d => by
    obtain ⟨e0, e1, e2⟩ := idx0 t
    show V m c main_arg0 (((cfg0.win 0).blk t).view.emb (ix3 b tt d)) = _
    rw [V_main_arg0]
    refine congrArg (m ((c : Thread nD τ).loc main_arg0)) (funext fun a => Fin.ext ?_)
    match a with
    | ⟨0, _⟩ => show win0_0.index t (0 : Fin 3) * 2 + 1 * b.val = 2 * t.val + b.val; omega
    | ⟨1, _⟩ => show win0_0.index t (1 : Fin 3) * 128 + 1 * tt.val = tt.val; omega
    | ⟨2, _⟩ => show win0_0.index t (2 : Fin 3) * 512 + 1 * d.val = d.val; omega
  h1 := fun b s e => by
    obtain ⟨e0, e1, e2⟩ := idx1 t
    show V m c main_arg1 (((cfg0.win 1).blk t).view.emb (ix3 b s e)) = _
    rw [V_main_arg1]
    refine congrArg (m ((c : Thread nD τ).loc main_arg1)) (funext fun a => Fin.ext ?_)
    match a with
    | ⟨0, _⟩ => show win0_1.index t (0 : Fin 3) * 2 + 1 * b.val = 2 * t.val + b.val; omega
    | ⟨1, _⟩ => show win0_1.index t (1 : Fin 3) * 512 + 1 * s.val = s.val; omega
    | ⟨2, _⟩ => show win0_1.index t (2 : Fin 3) * 1024 + 1 * e.val = e.val; omega
  h2 := fun b tt s => by
    obtain ⟨e0, e1, e2⟩ := idx2 t
    show (V m c main_v2 : S64x128x512.Idx → EReal) (((cfg0.win 2).blk t).view.emb (ix3 b tt s)) = _
    have he : ((cfg0.win 2).blk t).view.emb (ix3 b tt s) = ix3 (bat (pt t) b) tt s := by
      funext a; apply Fin.ext
      match a with
      | ⟨0, _⟩ => show win0_2.index t (0 : Fin 3) * 2 + 1 * b.val = 2 * t.val + b.val; omega
      | ⟨1, _⟩ => show win0_2.index t (1 : Fin 3) * 128 + 1 * tt.val = tt.val; omega
      | ⟨2, _⟩ => show win0_2.index t (2 : Fin 3) * 512 + 1 * s.val = s.val; omega
    rw [he]
    exact maskArr_apply m c _ tt s
  h4 := fun e d => by
    obtain ⟨e0, e1⟩ := idx3 t
    show (V m c main_v3 : S1024x512.Idx → EReal) (((cfg0.win 3).blk t).view.emb (ix2 e d)) = _
    rw [wArr_eq]
    show m ((c : Thread nD τ).loc main_arg3) (((cfg0.win 3).blk t).view.emb (ix2 e d)) = _
    refine congrArg (m ((c : Thread nD τ).loc main_arg3)) (funext fun a => Fin.ext ?_)
    match a with
    | ⟨0, _⟩ => show win0_3.index t (0 : Fin 2) * 1024 + 1 * e.val = e.val; omega
    | ⟨1, _⟩ => show win0_3.index t (1 : Fin 2) * 512 + 1 * d.val = d.val; omega
  h6 := fun d => by
    have e0 := idx4 t
    show V m c main_arg4 (((cfg0.win 4).blk t).view.emb (ix1 d)) = _
    rw [V_main_arg4]
    refine congrArg (m ((c : Thread nD τ).loc main_arg4)) (funext fun a => Fin.ext ?_)
    match a with
    | ⟨0, _⟩ => show win0_4.index t (0 : Fin 1) * 512 + 1 * d.val = d.val; omega
  h7 := fun k d => by
    obtain ⟨e0, e1⟩ := idx5 t
    show (V m c main_v4 : S1536x512.Idx → EReal) (((cfg0.win 5).blk t).view.emb (ix2 k d)) = _
    rw [woArr_eq]
    show m ((c : Thread nD τ).loc main_arg5) (((cfg0.win 5).blk t).view.emb (ix2 k d)) = _
    refine congrArg (m ((c : Thread nD τ).loc main_arg5)) (funext fun a => Fin.ext ?_)
    match a with
    | ⟨0, _⟩ => show win0_5.index t (0 : Fin 2) * 1536 + 1 * k.val = k.val; omega
    | ⟨1, _⟩ => show win0_5.index t (1 : Fin 2) * 512 + 1 * d.val = d.val; omega

/-! ## Output window 6 -/

/-- An index of the array lies in point `t`'s block iff each coordinate lies in the block's range on its axis. -/
theorem mem_blk6 (t : Fin cfg0.N) (i : S64x128x512.Idx) :
    i ∈ ((cfg0.win 6).blk t).view.set ↔ ∀ a : Fin 3, win0_6.index t a * S2x128x512.size a ≤ (i a).val ∧ (i a).val < win0_6.index t a * S2x128x512.size a + S2x128x512.size a := by
  show i ∈ ((View.whole main_v5_0).slice (win0_6.rect t)).set ↔ _
  rw [View.set_slice_whole, Rect.mem_set_unit]
  exact Iff.rfl

/-- Where block index (b, tt, s) of point `t` sits in the array: batch `2t + b`, the other coordinates kept. -/
theorem emb6 (t : Fin cfg0.N) (b : Fin 2) (tt : Fin 128) (s : Fin 512) :
    ((cfg0.win 6).blk t).view.emb (ix3 b tt s) = ix3 (bat (pt t) b) tt s := by
  obtain ⟨e0, e1, e2⟩ := idx6 t
  funext a; apply Fin.ext
  match a with
  | ⟨0, _⟩ => show win0_6.index t (0 : Fin 3) * 2 + 1 * b.val = 2 * t.val + b.val; omega
  | ⟨1, _⟩ => show win0_6.index t (1 : Fin 3) * 128 + 1 * tt.val = tt.val; omega
  | ⟨2, _⟩ => show win0_6.index t (2 : Fin 3) * 512 + 1 * s.val = s.val; omega

/-- What point `t` writes back is block `t` of the reference's array. -/
theorem flushed6_eq (hre : ∀ c : Dev nD, RealArgs m c) (c : Dev nD) (t : Fin cfg0.N) :
    (dats m 0 c).flushed 6 t = ((cfg0.win 6).blk t).view.read (Elt Ideal) (outStates m c) := by
  rw [Cert.KernelIdeal.Value.flushed6]
  unfold out0_6
  rw [View.canon_unit_zero hz3]
  simp only [View.ld_unit_zero (S := S2x128x512) hz3, View.ld_unit_zero (S := S2x512x1024) hz3, View.ld_unit_zero (S := S1024x512) hz2, View.ld_unit_zero (S := S512) hz1, View.ld_unit_zero (S := S1536x512) hz2]
  funext j
  obtain ⟨b, tt, s, rfl⟩ : ∃ (b : Fin 2) (tt : Fin 128) (s : Fin 512), j = ix3 b tt s :=
    ⟨j 0, j 1, j 2, eq_ix3 (n0 := 2) (n1 := 128) (n2 := 512) j⟩
  show k0_pay1 (F := Ideal) (k0_pay2 (F := Ideal) (woBlk m c t)) (k0_pay6 (F := Ideal) (decBlk m c t) (encBlk m c t) (maskBlk m c t) (wBlk m c t) (biasBlk m c t)) (ix3 b tt s) = outStates m c (((cfg0.win 6).blk t).view.emb (ix3 b tt s))
  rw [emb6 t b tt s]
  exact pay1_bridge (reads m c t) (hre c) b tt s

/-- Every index of the array is in some point's block: batch `i₀` belongs to point `i₀ / 2`. -/
theorem cover6 (i : S64x128x512.Idx) : ∃ t : Fin cfg0.N, (cfg0.win 6).flush t = true ∧ i ∈ ((cfg0.win 6).blk t).view.set := by
  have hi0 : (i 0).val < 64 := (i 0).isLt
  have hi1 : (i 1).val < 128 := (i 1).isLt
  have hi2 : (i 2).val < 512 := (i 2).isLt
  have hlt : (i 0).val / 2 < cfg0.N := by have hN : cfg0.N = 32 := N_0; omega
  refine ⟨⟨(i 0).val / 2, hlt⟩, flush0_6 _, ?_⟩
  rw [mem_blk6]
  obtain ⟨e0, e1, e2⟩ := idx6 ⟨(i 0).val / 2, hlt⟩
  have e0' : win0_6.index ⟨(i 0).val / 2, hlt⟩ (0 : Fin 3) = (i 0).val / 2 := e0
  intro a
  match a with
  | ⟨0, _⟩ => show win0_6.index ⟨(i 0).val / 2, hlt⟩ (0 : Fin 3) * 2 ≤ (i 0).val ∧ (i 0).val < win0_6.index ⟨(i 0).val / 2, hlt⟩ (0 : Fin 3) * 2 + 2; omega
  | ⟨1, _⟩ => show win0_6.index ⟨(i 0).val / 2, hlt⟩ (1 : Fin 3) * 128 ≤ (i 1).val ∧ (i 1).val < win0_6.index ⟨(i 0).val / 2, hlt⟩ (1 : Fin 3) * 128 + 128; omega
  | ⟨2, _⟩ => show win0_6.index ⟨(i 0).val / 2, hlt⟩ (2 : Fin 3) * 512 ≤ (i 2).val ∧ (i 2).val < win0_6.index ⟨(i 0).val / 2, hlt⟩ (2 : Fin 3) * 512 + 512; omega

/-- So the array ends holding the reference's. -/
theorem final6 (hre : ∀ c : Dev nD, RealArgs m c) (c : Dev nD) : (dats m 0 c).arrAt 6 cfg0.N = outStates m c :=
  (dats m 0 c).arrAt_eq_of_cover 6 (outStates m c) (fun t _ => flushed6_eq m hre c t) cover6

/-! ## Output window 7 -/

/-- An index of the array lies in point `t`'s block iff each coordinate lies in the block's range on its axis. -/
theorem mem_blk7 (t : Fin cfg0.N) (i : S64x128x512.Idx) :
    i ∈ ((cfg0.win 7).blk t).view.set ↔ ∀ a : Fin 3, win0_7.index t a * S2x128x512.size a ≤ (i a).val ∧ (i a).val < win0_7.index t a * S2x128x512.size a + S2x128x512.size a := by
  show i ∈ ((View.whole main_v5_1).slice (win0_7.rect t)).set ↔ _
  rw [View.set_slice_whole, Rect.mem_set_unit]
  exact Iff.rfl

/-- Where block index (b, tt, s) of point `t` sits in the array: batch `2t + b`, the other coordinates kept. -/
theorem emb7 (t : Fin cfg0.N) (b : Fin 2) (tt : Fin 128) (s : Fin 512) :
    ((cfg0.win 7).blk t).view.emb (ix3 b tt s) = ix3 (bat (pt t) b) tt s := by
  obtain ⟨e0, e1, e2⟩ := idx7 t
  funext a; apply Fin.ext
  match a with
  | ⟨0, _⟩ => show win0_7.index t (0 : Fin 3) * 2 + 1 * b.val = 2 * t.val + b.val; omega
  | ⟨1, _⟩ => show win0_7.index t (1 : Fin 3) * 128 + 1 * tt.val = tt.val; omega
  | ⟨2, _⟩ => show win0_7.index t (2 : Fin 3) * 512 + 1 * s.val = s.val; omega

/-- What point `t` writes back is block `t` of the reference's array. -/
theorem flushed7_eq (hre : ∀ c : Dev nD, RealArgs m c) (c : Dev nD) (t : Fin cfg0.N) :
    (dats m 0 c).flushed 7 t = ((cfg0.win 7).blk t).view.read (Elt Ideal) (attnWeights m c) := by
  rw [Cert.KernelIdeal.Value.flushed7]
  unfold out0_7
  rw [View.canon_unit_zero hz3]
  simp only [View.ld_unit_zero (S := S2x128x512) hz3, View.ld_unit_zero (S := S2x512x1024) hz3, View.ld_unit_zero (S := S1024x512) hz2, View.ld_unit_zero (S := S512) hz1]
  funext j
  obtain ⟨b, tt, s, rfl⟩ : ∃ (b : Fin 2) (tt : Fin 128) (s : Fin 512), j = ix3 b tt s :=
    ⟨j 0, j 1, j 2, eq_ix3 (n0 := 2) (n1 := 128) (n2 := 512) j⟩
  show k0_pay5 (F := Ideal) (decBlk m c t) (encBlk m c t) (maskBlk m c t) (wBlk m c t) (biasBlk m c t) (ix3 b tt s) = attnWeights m c (((cfg0.win 7).blk t).view.emb (ix3 b tt s))
  rw [emb7 t b tt s]
  exact pay5_bridge (reads m c t) (hre c) b tt s

/-- Every index of the array is in some point's block: batch `i₀` belongs to point `i₀ / 2`. -/
theorem cover7 (i : S64x128x512.Idx) : ∃ t : Fin cfg0.N, (cfg0.win 7).flush t = true ∧ i ∈ ((cfg0.win 7).blk t).view.set := by
  have hi0 : (i 0).val < 64 := (i 0).isLt
  have hi1 : (i 1).val < 128 := (i 1).isLt
  have hi2 : (i 2).val < 512 := (i 2).isLt
  have hlt : (i 0).val / 2 < cfg0.N := by have hN : cfg0.N = 32 := N_0; omega
  refine ⟨⟨(i 0).val / 2, hlt⟩, flush0_7 _, ?_⟩
  rw [mem_blk7]
  obtain ⟨e0, e1, e2⟩ := idx7 ⟨(i 0).val / 2, hlt⟩
  have e0' : win0_7.index ⟨(i 0).val / 2, hlt⟩ (0 : Fin 3) = (i 0).val / 2 := e0
  intro a
  match a with
  | ⟨0, _⟩ => show win0_7.index ⟨(i 0).val / 2, hlt⟩ (0 : Fin 3) * 2 ≤ (i 0).val ∧ (i 0).val < win0_7.index ⟨(i 0).val / 2, hlt⟩ (0 : Fin 3) * 2 + 2; omega
  | ⟨1, _⟩ => show win0_7.index ⟨(i 0).val / 2, hlt⟩ (1 : Fin 3) * 128 ≤ (i 1).val ∧ (i 1).val < win0_7.index ⟨(i 0).val / 2, hlt⟩ (1 : Fin 3) * 128 + 128; omega
  | ⟨2, _⟩ => show win0_7.index ⟨(i 0).val / 2, hlt⟩ (2 : Fin 3) * 512 ≤ (i 2).val ∧ (i 2).val < win0_7.index ⟨(i 0).val / 2, hlt⟩ (2 : Fin 3) * 512 + 512; omega

/-- So the array ends holding the reference's. -/
theorem final7 (hre : ∀ c : Dev nD, RealArgs m c) (c : Dev nD) : (dats m 0 c).arrAt 7 cfg0.N = attnWeights m c :=
  (dats m 0 c).arrAt_eq_of_cover 7 (attnWeights m c) (fun t _ => flushed7_eq m hre c t) cover7

/-! ## Output window 8 -/

/-- An index of the array lies in point `t`'s block iff each coordinate lies in the block's range on its axis. -/
theorem mem_blk8 (t : Fin cfg0.N) (i : S64x128x512.Idx) :
    i ∈ ((cfg0.win 8).blk t).view.set ↔ ∀ a : Fin 3, win0_8.index t a * S2x128x512.size a ≤ (i a).val ∧ (i a).val < win0_8.index t a * S2x128x512.size a + S2x128x512.size a := by
  show i ∈ ((View.whole main_v5_2).slice (win0_8.rect t)).set ↔ _
  rw [View.set_slice_whole, Rect.mem_set_unit]
  exact Iff.rfl

/-- Where block index (b, tt, s) of point `t` sits in the array: batch `2t + b`, the other coordinates kept. -/
theorem emb8 (t : Fin cfg0.N) (b : Fin 2) (tt : Fin 128) (s : Fin 512) :
    ((cfg0.win 8).blk t).view.emb (ix3 b tt s) = ix3 (bat (pt t) b) tt s := by
  obtain ⟨e0, e1, e2⟩ := idx8 t
  funext a; apply Fin.ext
  match a with
  | ⟨0, _⟩ => show win0_8.index t (0 : Fin 3) * 2 + 1 * b.val = 2 * t.val + b.val; omega
  | ⟨1, _⟩ => show win0_8.index t (1 : Fin 3) * 128 + 1 * tt.val = tt.val; omega
  | ⟨2, _⟩ => show win0_8.index t (2 : Fin 3) * 512 + 1 * s.val = s.val; omega

/-- What point `t` writes back is block `t` of the reference's array. -/
theorem flushed8_eq (hre : ∀ c : Dev nD, RealArgs m c) (c : Dev nD) (t : Fin cfg0.N) :
    (dats m 0 c).flushed 8 t = ((cfg0.win 8).blk t).view.read (Elt Ideal) (maskedEnergies m c) := by
  rw [Cert.KernelIdeal.Value.flushed8]
  unfold out0_8
  rw [View.canon_unit_zero hz3]
  simp only [View.ld_unit_zero (S := S2x128x512) hz3, View.ld_unit_zero (S := S2x512x1024) hz3, View.ld_unit_zero (S := S1024x512) hz2, View.ld_unit_zero (S := S512) hz1]
  funext j
  obtain ⟨b, tt, s, rfl⟩ : ∃ (b : Fin 2) (tt : Fin 128) (s : Fin 512), j = ix3 b tt s :=
    ⟨j 0, j 1, j 2, eq_ix3 (n0 := 2) (n1 := 128) (n2 := 512) j⟩
  show k0_pay4 (F := Ideal) (decBlk m c t) (encBlk m c t) (maskBlk m c t) (wBlk m c t) (biasBlk m c t) (ix3 b tt s) = maskedEnergies m c (((cfg0.win 8).blk t).view.emb (ix3 b tt s))
  rw [emb8 t b tt s]
  exact pay4_bridge (reads m c t) (hre c) b tt s

/-- Every index of the array is in some point's block: batch `i₀` belongs to point `i₀ / 2`. -/
theorem cover8 (i : S64x128x512.Idx) : ∃ t : Fin cfg0.N, (cfg0.win 8).flush t = true ∧ i ∈ ((cfg0.win 8).blk t).view.set := by
  have hi0 : (i 0).val < 64 := (i 0).isLt
  have hi1 : (i 1).val < 128 := (i 1).isLt
  have hi2 : (i 2).val < 512 := (i 2).isLt
  have hlt : (i 0).val / 2 < cfg0.N := by have hN : cfg0.N = 32 := N_0; omega
  refine ⟨⟨(i 0).val / 2, hlt⟩, flush0_8 _, ?_⟩
  rw [mem_blk8]
  obtain ⟨e0, e1, e2⟩ := idx8 ⟨(i 0).val / 2, hlt⟩
  have e0' : win0_8.index ⟨(i 0).val / 2, hlt⟩ (0 : Fin 3) = (i 0).val / 2 := e0
  intro a
  match a with
  | ⟨0, _⟩ => show win0_8.index ⟨(i 0).val / 2, hlt⟩ (0 : Fin 3) * 2 ≤ (i 0).val ∧ (i 0).val < win0_8.index ⟨(i 0).val / 2, hlt⟩ (0 : Fin 3) * 2 + 2; omega
  | ⟨1, _⟩ => show win0_8.index ⟨(i 0).val / 2, hlt⟩ (1 : Fin 3) * 128 ≤ (i 1).val ∧ (i 1).val < win0_8.index ⟨(i 0).val / 2, hlt⟩ (1 : Fin 3) * 128 + 128; omega
  | ⟨2, _⟩ => show win0_8.index ⟨(i 0).val / 2, hlt⟩ (2 : Fin 3) * 512 ≤ (i 2).val ∧ (i 2).val < win0_8.index ⟨(i 0).val / 2, hlt⟩ (2 : Fin 3) * 512 + 512; omega

/-- So the array ends holding the reference's. -/
theorem final8 (hre : ∀ c : Dev nD, RealArgs m c) (c : Dev nD) : (dats m 0 c).arrAt 8 cfg0.N = maskedEnergies m c :=
  (dats m 0 c).arrAt_eq_of_cover 8 (maskedEnergies m c) (fun t _ => flushed8_eq m hre c t) cover8

/-! ## The run, read -/

/-- The kernel's run re-posted: each result array at the reference's value of the arguments, the arguments unchanged. -/
theorem run (hre : ∀ c : Dev nD, RealArgs m c) : θ_run defs (onTc (τ := τ) (main (F := Ideal))) ⟨m, fun _ => 0, ρ⟩ fun r => ∀ c : Dev nD,
      r.2.mem ((c : Thread nD τ).loc main_v5_0) = outStates m c
      ∧ r.2.mem ((c : Thread nD τ).loc main_v5_1) = attnWeights m c
      ∧ r.2.mem ((c : Thread nD τ).loc main_v5_2) = maskedEnergies m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m hre c), (h c).2.1.trans (final7 m hre c),
      (h c).2.2.1.trans (final8 m hre c), (h c).2.2.2⟩)
    (Cert.KernelIdeal.Value.run_blocks m ρ)

end Cert.KernelIdeal.Hand

end
-- ==== Proof.lean ====
/-
  Luong "general" attention for a sequence-to-sequence decoder, as one kernel over pairs of batches, against its
  whole-array reference, on the extended reals.

  Both programs compute, per batch, the projection `P = enc · W_attn + b_attn`; the masked energies
  `E[t, s] = ⟨dec[t, ·], P[s, ·]⟩ · mask[s] + (−1.0e10) · (1 − mask[s])`; their softmax along the source axis
  `A[t, ·] = exp (E[t, ·] − max E[t, ·]) / Σ exp (E[t, ·] − max E[t, ·])`; the context `C = A · enc`; and the output
  `tanh ([C, dec] · W_out)`; and return the output, `A` and `E`. They differ in one place: the reference multiplies
  each projected entry by the mask before the dot product, `Σ_d dec[t, d] · (P[s, d] · mask[s])`, where the kernel
  multiplies the dot product, `(Σ_d dec[t, d] · P[s, d]) · mask[s]`. On real numbers these are one value; the precondition
  makes every float input a real number, the integer mask converts to one, and so the energies, hence everything computed
  from them, agree. Everything else — the kernel's casts to a narrower format, its accumulation into zero, its tiling by
  batch pairs, the reference's extra `max` against −∞ — is the identity on the extended reals.

  The kernel's frames are the generated ones; the reference's frame is its run with the results dropped; the
  idealization rewrote nothing, so `preserves` holds trivially.
-/
import proofs.«418906_j51041391345689_3_alg».proof.Defs
import proofs.«418906_j51041391345689_3_alg».proof.Proof.Gen.Kernel
import proofs.«418906_j51041391345689_3_alg».proof.Proof.Gen.Kernel.Frame
import proofs.«418906_j51041391345689_3_alg».proof.Proof.Gen.KernelIdeal
import proofs.«418906_j51041391345689_3_alg».proof.Proof.Gen.KernelIdeal.Frame
import proofs.«418906_j51041391345689_3_alg».proof.Proof.Gen.KernelIdeal.Value
import proofs.«418906_j51041391345689_3_alg».proof.Proof.Gen.ReferenceIdeal
import proofs.«418906_j51041391345689_3_alg».proof.Proof.Gen.Pre_finite_inputs
import proofs.«418906_j51041391345689_3_alg».proof.Proof.RefRun
import proofs.«418906_j51041391345689_3_alg».proof.Proof.RefRead
import proofs.«418906_j51041391345689_3_alg».proof.Proof.Finite
import proofs.«418906_j51041391345689_3_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments. -/
theorem frame_kernel : Cert.frame_Kernel := fun m ρ _ => Cert.Kernel.Gen.frame m ρ

/-- The idealized kernel runs and leaves its arguments. -/
theorem frame_kernelIdeal : Cert.frame_KernelIdeal := fun m ρ _ => Cert.KernelIdeal.Gen.frame m ρ

/-- The reference runs and leaves its arguments: its run, the three results dropped. -/
theorem frame_referenceIdeal : Cert.frame_ReferenceIdeal := fun m ρ _ =>
  (θ_run Cert.ReferenceIdeal.defs _ _).mono (fun _ h c => (h c).2.2.2) (Cert.ReferenceIdeal.ValueP.run (F := Ideal) m ρ)

/-- The idealization rewrote no operation. -/
theorem preserves : Cert.preserves_Kernel_KernelIdeal := trivial

/-- From arguments that agree, both programs end with the reference's three arrays of those arguments: the kernel's
    32 blocks assemble them (under real inputs, which the precondition gives), and the reference computes them. -/
theorem algebraic : Cert.algebraic_KernelIdeal_ReferenceIdeal := by
  intro m ρ m' ρ' hpre hagree
  have hre : ∀ c, Cert.KernelIdeal.Hand.RealArgs m c := fun c => by
    obtain ⟨f0, f1, f3, f4, _⟩ := Cert.Finite.finite_of_pre _ _ _ _ _ _ (hpre c)
    exact ⟨f0, f1, f3, f4⟩
  refine ⟨_, _, _, Cert.KernelIdeal.Hand.run m ρ hre, ?_⟩
  refine (θ_run Cert.ReferenceIdeal.defs _ _).mono (fun _ h c => ?_) (Cert.ReferenceIdeal.ValueP.run (F := Ideal) m' ρ')
  obtain ⟨a0, a1, a2, a3, a4, a5⟩ := hagree c
  refine ⟨(h c).1.trans ?_, (h c).2.1.trans ?_, (h c).2.2.1.trans ?_, (h c).2.2.2⟩
  · rw [Cert.ReferenceIdeal.ReadP.val_main_v30_eq, a0, a1, a2, a3, a4, a5]; rfl
  · rw [Cert.ReferenceIdeal.ReadP.val_main_v26_eq, a0, a1, a2, a3, a4]; rfl
  · rw [Cert.ReferenceIdeal.ReadP.val_main_v15_eq, a0, a1, a2, a3, a4]; rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
